-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v76)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v76) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v84) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S128 .f32) (main_arg6 : FVec F S128x128 .f32) (main_arg7 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg6
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  main_v33

def fn {F : FTy → Type} [FloatOps F] (main_arg0 : FVec F S50000x128 .f32) (main_arg1 : IVec S2x800000 32) (main_arg2 : FVec F S128x128 .f32) (main_arg3 : FVec F S128 .f32) (main_arg4 : FVec F S128x128 .f32) (main_arg5 : FVec F S128 .f32) (main_arg6 : FVec F S128x128 .f32) (main_arg7 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_v13 main_v16
-- ==== Kernel.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S5000x128 : Shape := ⟨2, ![5000, 128]⟩
abbrev S850000x128 : Shape := ⟨2, ![850000, 128]⟩
abbrev S1x128 : Shape := ⟨2, ![1, 128]⟩

abbrev nBuf : Space → Nat
  | .hbm => 105
  | .vmem => 30
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S50000, .i32⟩
  | .hbm, ⟨9, _⟩ => ⟨S1x800000, .i32⟩
  | .hbm, ⟨10, _⟩ => ⟨S800000, .i32⟩
  | .hbm, ⟨11, _⟩ => ⟨S850000, .i32⟩
  | .hbm, ⟨12, _⟩ => ⟨S1x800000, .i32⟩
  | .hbm, ⟨13, _⟩ => ⟨S800000, .i32⟩
  | .hbm, ⟨14, _⟩ => ⟨S850000, .i32⟩
  | .hbm, ⟨15, _⟩ => ⟨S_, .f32⟩
  | .hbm, ⟨16, _⟩ => ⟨S850000, .f32⟩
  | .hbm, ⟨17, _⟩ => ⟨S_, .f32⟩
  | .hbm, ⟨18, _⟩ => ⟨S50000, .f32⟩
  | .hbm, ⟨19, _⟩ => ⟨S850000x1, .i32⟩
  | .hbm, ⟨20, _⟩ => ⟨S50000, .f32⟩
  | .hbm, ⟨21, _⟩ => ⟨S_, .f32⟩
  | .hbm, ⟨22, _⟩ => ⟨S50000, .f32⟩
  | .hbm, ⟨23, _⟩ => ⟨S50000, .i1⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S50000, .f32⟩
  | .hbm, ⟨28, _⟩ => ⟨S_, .f32⟩
  | .hbm, ⟨29, _⟩ => ⟨S_, .f32⟩
  | .hbm, ⟨30, _⟩ => ⟨S50000, .f32⟩
  | .hbm, ⟨31, _⟩ => ⟨S50000, .f32⟩
  | .hbm, ⟨32, _⟩ => ⟨S_, .i32⟩
  | .hbm, ⟨33, _⟩ => ⟨S850000, .i32⟩
  | .hbm, ⟨34, _⟩ => ⟨S850000, .i1⟩
  | .hbm, ⟨35, _⟩ => ⟨S_, .i32⟩
  | .hbm, ⟨36, _⟩ => ⟨S850000, .i32⟩
  | .hbm, ⟨37, _⟩ => ⟨S850000, .i32⟩
  | .hbm, ⟨38, _⟩ => ⟨S850000, .i32⟩
  | .hbm, ⟨39, _⟩ => ⟨S850000x1, .i32⟩
  | .hbm, ⟨40, _⟩ => ⟨S850000, .f32⟩
  | .hbm, ⟨41, _⟩ => ⟨S_, .i32⟩
  | .hbm, ⟨42, _⟩ => ⟨S850000, .i32⟩
  | .hbm, ⟨43, _⟩ => ⟨S850000, .i1⟩
  | .hbm, ⟨44, _⟩ => ⟨S_, .i32⟩
  | .hbm, ⟨45, _⟩ => ⟨S850000, .i32⟩
  | .hbm, ⟨46, _⟩ => ⟨S850000, .i32⟩
  | .hbm, ⟨47, _⟩ => ⟨S850000, .i32⟩
  | .hbm, ⟨48, _⟩ => ⟨S850000x1, .i32⟩
  | .hbm, ⟨49, _⟩ => ⟨S850000, .f32⟩
  | .hbm, ⟨50, _⟩ => ⟨S850000, .f32⟩
  | .hbm, ⟨51, _⟩ => ⟨S50000x128, .f32⟩
  | .hbm, ⟨52, _⟩ => ⟨S_, .i32⟩
  | .hbm, ⟨53, _⟩ => ⟨S850000, .i32⟩
  | .hbm, ⟨54, _⟩ => ⟨S850000, .i1⟩
  | .hbm, ⟨55, _⟩ => ⟨S_, .i32⟩
  | .hbm, ⟨56, _⟩ => ⟨S850000, .i32⟩
  | .hbm, ⟨57, _⟩ => ⟨S850000, .i32⟩
  | .hbm, ⟨58, _⟩ => ⟨S850000, .i32⟩
  | .hbm, ⟨59, _⟩ => ⟨S850000x1, .i32⟩
  | .hbm, ⟨60, _⟩ => ⟨S850000x128, .f32⟩
  | .hbm, ⟨61, _⟩ => ⟨S850000x1, .f32⟩
  | .hbm, ⟨62, _⟩ => ⟨S850000x128, .f32⟩
  | .hbm, ⟨63, _⟩ => ⟨S850000x128, .f32⟩
  | .hbm, ⟨64, _⟩ => ⟨S_, .f32⟩
  | .hbm, ⟨65, _⟩ => ⟨S50000x128, .f32⟩
  | .hbm, ⟨66, _⟩ => ⟨S850000x1, .i32⟩
  | .hbm, ⟨67, _⟩ => ⟨S50000x128, .f32⟩
  | .hbm, ⟨68, _⟩ => ⟨S50000x128, .f32⟩
  | .hbm, ⟨69, _⟩ => ⟨S50000x128, .f32⟩
  | .hbm, ⟨70, _⟩ => ⟨S_, .i32⟩
  | .hbm, ⟨71, _⟩ => ⟨S850000, .i32⟩
  | .hbm, ⟨72, _⟩ => ⟨S850000, .i1⟩
  | .hbm, ⟨73, _⟩ => ⟨S_, .i32⟩
  | .hbm, ⟨74, _⟩ => ⟨S850000, .i32⟩
  | .hbm, ⟨75, _⟩ => ⟨S850000, .i32⟩
  | .hbm, ⟨76, _⟩ => ⟨S850000, .i32⟩
  | .hbm, ⟨77, _⟩ => ⟨S850000x1, .i32⟩
  | .hbm, ⟨78, _⟩ => ⟨S850000x128, .f32⟩
  | .hbm, ⟨79, _⟩ => ⟨S850000x1, .f32⟩
  | .hbm, ⟨80, _⟩ => ⟨S850000x128, .f32⟩
  | .hbm, ⟨81, _⟩ => ⟨S850000x128, .f32⟩
  | .hbm, ⟨82, _⟩ => ⟨S_, .f32⟩
  | .hbm, ⟨83, _⟩ => ⟨S50000x128, .f32⟩
  | .hbm, ⟨84, _⟩ => ⟨S850000x1, .i32⟩
  | .hbm, ⟨85, _⟩ => ⟨S50000x128, .f32⟩
  | .hbm, ⟨86, _⟩ => ⟨S50000x128, .f32⟩
  | .hbm, ⟨87, _⟩ => ⟨S50000x128, .f32⟩
  | .hbm, ⟨88, _⟩ => ⟨S_, .i32⟩
  | .hbm, ⟨89, _⟩ => ⟨S850000, .i32⟩
  | .hbm, ⟨90, _⟩ => ⟨S850000, .i1⟩
  | .hbm, ⟨91, _⟩ => ⟨S_, .i32⟩
  | .hbm, ⟨92, _⟩ => ⟨S850000, .i32⟩
  | .hbm, ⟨93, _⟩ => ⟨S850000, .i32⟩
  | .hbm, ⟨94, _⟩ => ⟨S850000, .i32⟩
  | .hbm, ⟨95, _⟩ => ⟨S850000x1, .i32⟩
  | .hbm, ⟨96, _⟩ => ⟨S850000x128, .f32⟩
  | .hbm, ⟨97, _⟩ => ⟨S850000x1, .f32⟩
  | .hbm, ⟨98, _⟩ => ⟨S850000x128, .f32⟩
  | .hbm, ⟨99, _⟩ => ⟨S850000x128, .f32⟩
  | .hbm, ⟨100, _⟩ => ⟨S_, .f32⟩
  | .hbm, ⟨101, _⟩ => ⟨S50000x128, .f32⟩
  | .hbm, ⟨102, _⟩ => ⟨S850000x1, .i32⟩
  | .hbm, ⟨103, _⟩ => ⟨S50000x128, .f32⟩
  | .hbm, ⟨104, _⟩ => ⟨S50000x128, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S128x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S128x128, .f32⟩
  | .local _ .vmem, ⟨23, _⟩ => ⟨S5000x128, .f32⟩
  | .local _ .vmem, ⟨24, _⟩ => ⟨S5000x128, .f32⟩
  | .local _ .vmem, ⟨25, _⟩ => ⟨S5000x128, .f32⟩
  | .local _ .vmem, ⟨26, _⟩ => ⟨S5000x128, .f32⟩
  | .local _ .vmem, ⟨27, _⟩ => ⟨S128, .f32⟩
  | .local _ .vmem, ⟨28, _⟩ => ⟨S5000x128, .f32⟩
  | .local _ .vmem, ⟨29, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_3 : Ref sig .tc := ⟨.hbm, 28, rfl⟩
abbrev main_call0_v0 : Ref sig .tc := ⟨.hbm, 29, rfl⟩
abbrev main_call0_v1 : Ref sig .tc := ⟨.hbm, 30, rfl⟩
abbrev main_v16 : Ref sig .tc := ⟨.hbm, 31, rfl⟩
abbrev main_c : Ref sig .tc := ⟨.hbm, 32, rfl⟩
abbrev main_v17 : Ref sig .tc := ⟨.hbm, 33, rfl⟩
abbrev main_v18 : Ref sig .tc := ⟨.hbm, 34, rfl⟩
abbrev main_c_4 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_c_6 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_c_7 : Ref sig .tc := ⟨.hbm, 52, rfl⟩
abbrev main_v33 : Ref sig .tc := ⟨.hbm, 53, rfl⟩
abbrev main_v34 : Ref sig .tc := ⟨.hbm, 54, rfl⟩
abbrev main_c_8 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_cst_9 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_c_10 : Ref sig .tc := ⟨.hbm, 70, rfl⟩
abbrev main_v48 : Ref sig .tc := ⟨.hbm, 71, rfl⟩
abbrev main_v49 : Ref sig .tc := ⟨.hbm, 72, rfl⟩
abbrev main_c_11 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_cst_12 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_c_13 : Ref sig .tc := ⟨.hbm, 88, rfl⟩
abbrev main_v63 : Ref sig .tc := ⟨.hbm, 89, rfl⟩
abbrev main_v64 : Ref sig .tc := ⟨.hbm, 90, rfl⟩
abbrev main_c_14 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_cst_15 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc4_stg0_0 : Ref sig .tc := ⟨.vmem, 20, rfl⟩
abbrev cc4_stg0_1 : Ref sig .tc := ⟨.vmem, 21, rfl⟩
abbrev cc4_stg1_0 : Ref sig .tc := ⟨.vmem, 22, rfl⟩
abbrev cc4_stg2_0 : Ref sig .tc := ⟨.vmem, 23, rfl⟩
abbrev cc4_stg2_1 : Ref sig .tc := ⟨.vmem, 24, rfl⟩
abbrev cc5_stg0_0 : Ref sig .tc := ⟨.vmem, 25, rfl⟩
abbrev cc5_stg0_1 : Ref sig .tc := ⟨.vmem, 26, rfl⟩
abbrev cc5_stg1_0 : Ref sig .tc := ⟨.vmem, 27, rfl⟩
abbrev cc5_stg2_0 : Ref sig .tc := ⟨.vmem, 28, rfl⟩
abbrev cc5_stg2_1 : Ref sig .tc := ⟨.vmem, 29, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc4_sem0_0 : DmaSem sig := 20
abbrev cc4_sem0_1 : DmaSem sig := 21
abbrev cc4_sem1_0 : DmaSem sig := 22
abbrev cc4_sem2_0 : DmaSem sig := 23
abbrev cc4_sem2_1 : DmaSem sig := 24
abbrev cc5_sem0_0 : DmaSem sig := 25
abbrev cc5_sem0_1 : DmaSem sig := 26
abbrev cc5_sem1_0 : DmaSem sig := 27
abbrev cc5_sem2_0 : DmaSem sig := 28
abbrev cc5_sem2_1 : DmaSem sig := 29

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S5000x128 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 1 → Nat :=
  let arg0 : BitVec 32 := BitVec.ofNat 32 (i 0).val
  let c0_i32 : BitVec 32 := 0#32
  let c0_i32_0 : BitVec 32 := 0#32
  ![c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S5000x128 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  shapeCasts_S5000x128_S5000x128 : S5000x128.ShapeCasts S5000x128
  inb_S128_S128_0 : ∀ a, (![0] : Fin 1 → Nat) a + S128.size a ≤ S128.size a
  h_S128 : 0 < S128.numel
  shapeCasts_S128_S1x128 : S128.ShapeCasts S1x128
  broadcasts_S1x128_S5000x128 : S1x128.Broadcasts S5000x128
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S5000x128_S128x128_S5000x128_1_0_0_1_n_n_wf : DotDims.WF S5000x128 S128x128 S5000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .f32 = 32 ∨ (Rect.block (s := S50000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128.size a ≤ S128.size a
  hwx1_1 : ∀ i : grid1.Coords, EltTy.bits .f32 = 32 ∨ (Rect.block (s := S128) S128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S50000x128.size a
  hwx1_2 : ∀ i : grid1.Coords, EltTy.bits .f32 = 32 ∨ (Rect.block (s := S50000x128) S5000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x128.size a ≤ S50000x128.size a
  hwx2_2 : ∀ i : grid2.Coords, EltTy.bits .f32 = 32 ∨ (Rect.block (s := S50000x128) S5000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128.size a ≤ S128.size a
  hwx3_1 : ∀ i : grid3.Coords, EltTy.bits .f32 = 32 ∨ (Rect.block (s := S128) S128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x128.size a ≤ S50000x128.size a
  hwx3_2 : ∀ i : grid3.Coords, EltTy.bits .f32 = 32 ∨ (Rect.block (s := S50000x128) S5000x128.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S50000x128.size a
  hwx4_0 : ∀ i : grid4.Coords, EltTy.bits .f32 = 32 ∨ (Rect.block (s := S50000x128) S5000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x128.size a ≤ S128x128.size a
  hwx4_1 : ∀ i : grid4.Coords, EltTy.bits .f32 = 32 ∨ (Rect.block (s := S128x128) S128x128.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x128.size a ≤ S50000x128.size a
  hwx4_2 : ∀ i : grid4.Coords, EltTy.bits .f32 = 32 ∨ (Rect.block (s := S50000x128) S5000x128.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S50000x128.size a
  hwx5_0 : ∀ i : grid5.Coords, EltTy.bits .f32 = 32 ∨ (Rect.block (s := S50000x128) S5000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S128.size a ≤ S128.size a
  hwx5_1 : ∀ i : grid5.Coords, EltTy.bits .f32 = 32 ∨ (Rect.block (s := S128) S128.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S5000x128.size a ≤ S50000x128.size a
  hwx5_2 : ∀ i : grid5.Coords, EltTy.bits .f32 = 32 ∨ (Rect.block (s := S50000x128) S5000x128.size (cc5_transform_2 i) (hinb5_2 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v32) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v45) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg3) S128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v46) S5000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v46) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v47) S5000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v60) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg5) S128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v61) S5000x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v61) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg6) S128x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v62) S5000x128.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v75) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_arg7) S128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v76) S5000x128.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S850000x128 : Shape := ⟨2, ![850000, 128]⟩
abbrev S1x128 : Shape := ⟨2, ![1, 128]⟩

abbrev nBuf : Space → Nat
  | .hbm => 117
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S50000, .i32⟩
  | .hbm, ⟨9, _⟩ => ⟨S1x800000, .i32⟩
  | .hbm, ⟨10, _⟩ => ⟨S800000, .i32⟩
  | .hbm, ⟨11, _⟩ => ⟨S850000, .i32⟩
  | .hbm, ⟨12, _⟩ => ⟨S1x800000, .i32⟩
  | .hbm, ⟨13, _⟩ => ⟨S800000, .i32⟩
  | .hbm, ⟨14, _⟩ => ⟨S850000, .i32⟩
  | .hbm, ⟨15, _⟩ => ⟨S_, .f32⟩
  | .hbm, ⟨16, _⟩ => ⟨S850000, .f32⟩
  | .hbm, ⟨17, _⟩ => ⟨S_, .f32⟩
  | .hbm, ⟨18, _⟩ => ⟨S50000, .f32⟩
  | .hbm, ⟨19, _⟩ => ⟨S850000x1, .i32⟩
  | .hbm, ⟨20, _⟩ => ⟨S50000, .f32⟩
  | .hbm, ⟨21, _⟩ => ⟨S_, .f32⟩
  | .hbm, ⟨22, _⟩ => ⟨S50000, .f32⟩
  | .hbm, ⟨23, _⟩ => ⟨S50000, .i1⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S50000, .f32⟩
  | .hbm, ⟨28, _⟩ => ⟨S_, .f32⟩
  | .hbm, ⟨29, _⟩ => ⟨S_, .f32⟩
  | .hbm, ⟨30, _⟩ => ⟨S50000, .f32⟩
  | .hbm, ⟨31, _⟩ => ⟨S50000, .f32⟩
  | .hbm, ⟨32, _⟩ => ⟨S_, .i32⟩
  | .hbm, ⟨33, _⟩ => ⟨S850000, .i32⟩
  | .hbm, ⟨34, _⟩ => ⟨S850000, .i1⟩
  | .hbm, ⟨35, _⟩ => ⟨S_, .i32⟩
  | .hbm, ⟨36, _⟩ => ⟨S850000, .i32⟩
  | .hbm, ⟨37, _⟩ => ⟨S850000, .i32⟩
  | .hbm, ⟨38, _⟩ => ⟨S850000, .i32⟩
  | .hbm, ⟨39, _⟩ => ⟨S850000x1, .i32⟩
  | .hbm, ⟨40, _⟩ => ⟨S850000, .f32⟩
  | .hbm, ⟨41, _⟩ => ⟨S_, .i32⟩
  | .hbm, ⟨42, _⟩ => ⟨S850000, .i32⟩
  | .hbm, ⟨43, _⟩ => ⟨S850000, .i1⟩
  | .hbm, ⟨44, _⟩ => ⟨S_, .i32⟩
  | .hbm, ⟨45, _⟩ => ⟨S850000, .i32⟩
  | .hbm, ⟨46, _⟩ => ⟨S850000, .i32⟩
  | .hbm, ⟨47, _⟩ => ⟨S850000, .i32⟩
  | .hbm, ⟨48, _⟩ => ⟨S850000x1, .i32⟩
  | .hbm, ⟨49, _⟩ => ⟨S850000, .f32⟩
  | .hbm, ⟨50, _⟩ => ⟨S850000, .f32⟩
  | .hbm, ⟨51, _⟩ => ⟨S50000x128, .f32⟩
  | .hbm, ⟨52, _⟩ => ⟨S_, .i32⟩
  | .hbm, ⟨53, _⟩ => ⟨S850000, .i32⟩
  | .hbm, ⟨54, _⟩ => ⟨S850000, .i1⟩
  | .hbm, ⟨55, _⟩ => ⟨S_, .i32⟩
  | .hbm, ⟨56, _⟩ => ⟨S850000, .i32⟩
  | .hbm, ⟨57, _⟩ => ⟨S850000, .i32⟩
  | .hbm, ⟨58, _⟩ => ⟨S850000, .i32⟩
  | .hbm, ⟨59, _⟩ => ⟨S850000x1, .i32⟩
  | .hbm, ⟨60, _⟩ => ⟨S850000x128, .f32⟩
  | .hbm, ⟨61, _⟩ => ⟨S850000x1, .f32⟩
  | .hbm, ⟨62, _⟩ => ⟨S850000x128, .f32⟩
  | .hbm, ⟨63, _⟩ => ⟨S850000x128, .f32⟩
  | .hbm, ⟨64, _⟩ => ⟨S_, .f32⟩
  | .hbm, ⟨65, _⟩ => ⟨S50000x128, .f32⟩
  | .hbm, ⟨66, _⟩ => ⟨S850000x1, .i32⟩
  | .hbm, ⟨67, _⟩ => ⟨S50000x128, .f32⟩
  | .hbm, ⟨68, _⟩ => ⟨S1x128, .f32⟩
  | .hbm, ⟨69, _⟩ => ⟨S50000x128, .f32⟩
  | .hbm, ⟨70, _⟩ => ⟨S50000x128, .f32⟩
  | .hbm, ⟨71, _⟩ => ⟨S_, .f32⟩
  | .hbm, ⟨72, _⟩ => ⟨S50000x128, .f32⟩
  | .hbm, ⟨73, _⟩ => ⟨S50000x128, .f32⟩
  | .hbm, ⟨74, _⟩ => ⟨S50000x128, .f32⟩
  | .hbm, ⟨75, _⟩ => ⟨S_, .i32⟩
  | .hbm, ⟨76, _⟩ => ⟨S850000, .i32⟩
  | .hbm, ⟨77, _⟩ => ⟨S850000, .i1⟩
  | .hbm, ⟨78, _⟩ => ⟨S_, .i32⟩
  | .hbm, ⟨79, _⟩ => ⟨S850000, .i32⟩
  | .hbm, ⟨80, _⟩ => ⟨S850000, .i32⟩
  | .hbm, ⟨81, _⟩ => ⟨S850000, .i32⟩
  | .hbm, ⟨82, _⟩ => ⟨S850000x1, .i32⟩
  | .hbm, ⟨83, _⟩ => ⟨S850000x128, .f32⟩
  | .hbm, ⟨84, _⟩ => ⟨S850000x1, .f32⟩
  | .hbm, ⟨85, _⟩ => ⟨S850000x128, .f32⟩
  | .hbm, ⟨86, _⟩ => ⟨S850000x128, .f32⟩
  | .hbm, ⟨87, _⟩ => ⟨S_, .f32⟩
  | .hbm, ⟨88, _⟩ => ⟨S50000x128, .f32⟩
  | .hbm, ⟨89, _⟩ => ⟨S850000x1, .i32⟩
  | .hbm, ⟨90, _⟩ => ⟨S50000x128, .f32⟩
  | .hbm, ⟨91, _⟩ => ⟨S1x128, .f32⟩
  | .hbm, ⟨92, _⟩ => ⟨S50000x128, .f32⟩
  | .hbm, ⟨93, _⟩ => ⟨S50000x128, .f32⟩
  | .hbm, ⟨94, _⟩ => ⟨S_, .f32⟩
  | .hbm, ⟨95, _⟩ => ⟨S50000x128, .f32⟩
  | .hbm, ⟨96, _⟩ => ⟨S50000x128, .f32⟩
  | .hbm, ⟨97, _⟩ => ⟨S50000x128, .f32⟩
  | .hbm, ⟨98, _⟩ => ⟨S_, .i32⟩
  | .hbm, ⟨99, _⟩ => ⟨S850000, .i32⟩
  | .hbm, ⟨100, _⟩ => ⟨S850000, .i1⟩
  | .hbm, ⟨101, _⟩ => ⟨S_, .i32⟩
  | .hbm, ⟨102, _⟩ => ⟨S850000, .i32⟩
  | .hbm, ⟨103, _⟩ => ⟨S850000, .i32⟩
  | .hbm, ⟨104, _⟩ => ⟨S850000, .i32⟩
  | .hbm, ⟨105, _⟩ => ⟨S850000x1, .i32⟩
  | .hbm, ⟨106, _⟩ => ⟨S850000x128, .f32⟩
  | .hbm, ⟨107, _⟩ => ⟨S850000x1, .f32⟩
  | .hbm, ⟨108, _⟩ => ⟨S850000x128, .f32⟩
  | .hbm, ⟨109, _⟩ => ⟨S850000x128, .f32⟩
  | .hbm, ⟨110, _⟩ => ⟨S_, .f32⟩
  | .hbm, ⟨111, _⟩ => ⟨S50000x128, .f32⟩
  | .hbm, ⟨112, _⟩ => ⟨S850000x1, .i32⟩
  | .hbm, ⟨113, _⟩ => ⟨S50000x128, .f32⟩
  | .hbm, ⟨114, _⟩ => ⟨S1x128, .f32⟩
  | .hbm, ⟨115, _⟩ => ⟨S50000x128, .f32⟩
  | .hbm, ⟨116, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_3 : Ref sig .tc := ⟨.hbm, 28, rfl⟩
abbrev main_call0_v0 : Ref sig .tc := ⟨.hbm, 29, rfl⟩
abbrev main_call0_v1 : Ref sig .tc := ⟨.hbm, 30, rfl⟩
abbrev main_v16 : Ref sig .tc := ⟨.hbm, 31, rfl⟩
abbrev main_c : Ref sig .tc := ⟨.hbm, 32, rfl⟩
abbrev main_v17 : Ref sig .tc := ⟨.hbm, 33, rfl⟩
abbrev main_v18 : Ref sig .tc := ⟨.hbm, 34, rfl⟩
abbrev main_c_4 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_c_6 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_c_7 : Ref sig .tc := ⟨.hbm, 52, rfl⟩
abbrev main_v33 : Ref sig .tc := ⟨.hbm, 53, rfl⟩
abbrev main_v34 : Ref sig .tc := ⟨.hbm, 54, rfl⟩
abbrev main_c_8 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_cst_9 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_call1_cst : Ref sig .tc := ⟨.hbm, 71, rfl⟩
abbrev main_call1_v0 : Ref sig .tc := ⟨.hbm, 72, rfl⟩
abbrev main_v49 : Ref sig .tc := ⟨.hbm, 73, rfl⟩
abbrev main_v50 : Ref sig .tc := ⟨.hbm, 74, rfl⟩
abbrev main_c_10 : Ref sig .tc := ⟨.hbm, 75, rfl⟩
abbrev main_v51 : Ref sig .tc := ⟨.hbm, 76, rfl⟩
abbrev main_v52 : Ref sig .tc := ⟨.hbm, 77, rfl⟩
abbrev main_c_11 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_cst_12 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_call2_cst : Ref sig .tc := ⟨.hbm, 94, rfl⟩
abbrev main_call2_v0 : Ref sig .tc := ⟨.hbm, 95, rfl⟩
abbrev main_v67 : Ref sig .tc := ⟨.hbm, 96, rfl⟩
abbrev main_v68 : Ref sig .tc := ⟨.hbm, 97, rfl⟩
abbrev main_c_13 : Ref sig .tc := ⟨.hbm, 98, rfl⟩
abbrev main_v69 : Ref sig .tc := ⟨.hbm, 99, rfl⟩
abbrev main_v70 : Ref sig .tc := ⟨.hbm, 100, rfl⟩
abbrev main_c_14 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_cst_15 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S50000x128_S128x128_S50000x128_1_0_0_1_n_n_wf : DotDims.WF S50000x128 S128x128 S50000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf

class Facts : Prop extends Facts₀ where

variable [Facts]
-- ==== Proof.RefSpec.lean ====
/-
  The reference program's result as a composition of four functions of whole arrays, over the stages the
  read-back of the reference names.

  With e the edge list: `aggregate e h` gathers h's rows at the source nodes (self-loops appended, negative
  indices wrapped), scales each gathered row by the edge's normalisation, and adds the rows up at the target
  nodes; `dense x w` is the host's product of the features with a weight; `biased a b` adds the bias along
  every row and `rectified` takes the maximum with zero. The reference is three rounds of
  dense, aggregate, biased, the first two rectified.
-/
import proofs.«125980_j23845658428197_1_alg».proof.Proof.RefRead

noncomputable section

namespace Cert.ReferenceIdeal.Hand

open Cert.ReferenceIdeal Cert.ReferenceIdeal.ReadP Idealize.ShloMosaic Idealize.ShloMosaic.TcCoe Idealize.SL.Sem

variable {F : FTy → Type} [FloatOps F]

/-- Normalised sum over the incoming edges (and the self-loop) of each node. -/
def aggregate (e : (⟨S2x800000, .i32⟩ : BufTy).Contents (Elt F)) (h : (⟨S50000x128, .f32⟩ : BufTy).Contents (Elt F)) :
    (⟨S50000x128, .f32⟩ : BufTy).Contents (Elt F) :=
  Host.scatterAdd scatter_S50000x128_S850000x1_S850000x128_1_0_0_1 (val_main_v43 (F := F)) (val_main_v44 (F := F) e)
    (mulf (Host.gather gather_S50000x128_S850000x1_S850000x128_1_0_n_n_0_1_1128 h (val_main_v38 (F := F) e)) (val_main_v41 (F := F) e))

/-- Features times weight, on the host. -/
def dense (x : (⟨S50000x128, .f32⟩ : BufTy).Contents (Elt F)) (w : (⟨S128x128, .f32⟩ : BufTy).Contents (Elt F)) :
    (⟨S50000x128, .f32⟩ : BufTy).Contents (Elt F) :=
  Host.dotGeneral dot_S50000x128_S128x128_S50000x128_1_0_0_1_n_n none x w

/-- Bias along the rows. -/
def biased (a : (⟨S50000x128, .f32⟩ : BufTy).Contents (Elt F)) (b : (⟨S128, .f32⟩ : BufTy).Contents (Elt F)) :
    (⟨S50000x128, .f32⟩ : BufTy).Contents (Elt F) :=
  addf a (val_main_v47 (F := F) b)

/-- The maximum with zero. -/
def rectified (a : (⟨S50000x128, .f32⟩ : BufTy).Contents (Elt F)) : (⟨S50000x128, .f32⟩ : BufTy).Contents (Elt F) :=
  maximumf a (val_main_call1_v0 (F := F))

/-- One round without the maximum. -/
def round (e : (⟨S2x800000, .i32⟩ : BufTy).Contents (Elt F)) (x : (⟨S50000x128, .f32⟩ : BufTy).Contents (Elt F))
    (w : (⟨S128x128, .f32⟩ : BufTy).Contents (Elt F)) (b : (⟨S128, .f32⟩ : BufTy).Contents (Elt F)) :
    (⟨S50000x128, .f32⟩ : BufTy).Contents (Elt F) :=
  biased (aggregate e (dense x w)) b

/-- First round of the reference. -/
theorem round1 (x0 : (⟨S50000x128, .f32⟩ : BufTy).Contents (Elt F)) (e : (⟨S2x800000, .i32⟩ : BufTy).Contents (Elt F))
    (w1 : (⟨S128x128, .f32⟩ : BufTy).Contents (Elt F)) (b1 : (⟨S128, .f32⟩ : BufTy).Contents (Elt F)) :
    val_main_v49 (F := F) x0 e w1 b1 = rectified (round e x0 w1 b1) := rfl

/-- Second round. -/
theorem round2 (x0 : (⟨S50000x128, .f32⟩ : BufTy).Contents (Elt F)) (e : (⟨S2x800000, .i32⟩ : BufTy).Contents (Elt F))
    (w1 : (⟨S128x128, .f32⟩ : BufTy).Contents (Elt F)) (b1 : (⟨S128, .f32⟩ : BufTy).Contents (Elt F))
    (w2 : (⟨S128x128, .f32⟩ : BufTy).Contents (Elt F)) (b2 : (⟨S128, .f32⟩ : BufTy).Contents (Elt F)) :
    val_main_v67 (F := F) x0 e w1 b1 w2 b2 = rectified (round e (val_main_v49 (F := F) x0 e w1 b1) w2 b2) := rfl

/-- Third round: the reference's result. -/
theorem round3 (x0 : (⟨S50000x128, .f32⟩ : BufTy).Contents (Elt F)) (e : (⟨S2x800000, .i32⟩ : BufTy).Contents (Elt F))
    (w1 : (⟨S128x128, .f32⟩ : BufTy).Contents (Elt F)) (b1 : (⟨S128, .f32⟩ : BufTy).Contents (Elt F))
    (w2 : (⟨S128x128, .f32⟩ : BufTy).Contents (Elt F)) (b2 : (⟨S128, .f32⟩ : BufTy).Contents (Elt F))
    (w3 : (⟨S128x128, .f32⟩ : BufTy).Contents (Elt F)) (b3 : (⟨S128, .f32⟩ : BufTy).Contents (Elt F)) :
    val_main_v84 (F := F) x0 e w1 b1 w2 b2 w3 b3 = round e (val_main_v67 (F := F) x0 e w1 b1 w2 b2) w3 b3 := rfl

/-- The reference's result is the three rounds composed. -/
theorem reference_rounds (x0 : (⟨S50000x128, .f32⟩ : BufTy).Contents (Elt F)) (e : (⟨S2x800000, .i32⟩ : BufTy).Contents (Elt F))
    (w1 : (⟨S128x128, .f32⟩ : BufTy).Contents (Elt F)) (b1 : (⟨S128, .f32⟩ : BufTy).Contents (Elt F))
    (w2 : (⟨S128x128, .f32⟩ : BufTy).Contents (Elt F)) (b2 : (⟨S128, .f32⟩ : BufTy).Contents (Elt F))
    (w3 : (⟨S128x128, .f32⟩ : BufTy).Contents (Elt F)) (b3 : (⟨S128, .f32⟩ : BufTy).Contents (Elt F)) :
    val_main_v84 (F := F) x0 e w1 b1 w2 b2 w3 b3
      = round e (rectified (round e (rectified (round e x0 w1 b1)) w2 b2)) w3 b3 := by
  rw [round3, round2, round1]

end Cert.ReferenceIdeal.Hand

end
-- ==== Proof.HostWalk.lean ====
/-
  The contents of @main's buffers at the boundaries between its host stretches and its six Pallas calls, read back
  through the fold of the program's operations.

  The graph preparation leaves the source list, the target list and the edge normalisation at exactly the
  reference's stages of the edge list; no later stretch and no Pallas call writes them or an argument; and each of
  the three aggregation stretches applies the reference's aggregation to the output of the dense call before it.
-/
import proofs.«125980_j23845658428197_1_alg».proof.Proof.Gen.KernelIdeal.Frame
import proofs.«125980_j23845658428197_1_alg».proof.Proof.RefSpec

set_option maxRecDepth 16384

noncomputable section

namespace Cert.KernelIdeal.Hand

open Cert.KernelIdeal Cert.KernelIdeal.Gen Idealize.ShloMosaic Idealize.ShloMosaic.TcCoe Idealize.SL.Sem
open Cert.ReferenceIdeal.ReadP Cert.ReferenceIdeal.Hand

variable {F : FTy → Type} [FloatOps F]
variable (m : (ℓ : Loc nD τ sig) → Buf (Elt F) ℓ) (ρ : Dev nD → PrngReg) (c : Dev nD)

/-! ## The graph preparation -/

/-- The source list (edge sources, then every node once for its self-loop). -/
theorem src_3 : W3 m ρ c (Proc.devRef .tc main_v3) = val_main_v3 (F := F) (m ((c : Thread nD τ).loc main_arg1)) := by
  show StableHlo.after hostOps0_2 (StableHlo.after hostOps0_1 (StableHlo.after hostOps0 (W0 m ρ c))) (Proc.devRef .tc main_v3) = _
  after_results_simp <;> rfl

/-- The target list. -/
theorem tgt_3 : W3 m ρ c (Proc.devRef .tc main_v6) = val_main_v6 (F := F) (m ((c : Thread nD τ).loc main_arg1)) := by
  show StableHlo.after hostOps0_2 (StableHlo.after hostOps0_1 (StableHlo.after hostOps0 (W0 m ρ c))) (Proc.devRef .tc main_v6) = _
  after_results_simp <;> rfl

/-- The edge normalisation: the product of the two end nodes' inverse square-root degrees. -/
theorem norm_3 : W3 m ρ c (Proc.devRef .tc main_v31) = val_main_v31 (F := F) (m ((c : Thread nD τ).loc main_arg1)) := by
  show StableHlo.after hostOps0_2 (StableHlo.after hostOps0_1 (StableHlo.after hostOps0 (W0 m ρ c))) (Proc.devRef .tc main_v31) = _
  after_results_simp <;> rfl

/-! ## The arguments when the first Pallas call is entered

No operation of the preparation writes an argument. -/

theorem arg0_3 : W3 m ρ c (Proc.devRef .tc main_arg0) = m ((c : Thread nD τ).loc main_arg0) := by
  show StableHlo.after hostOps0_2 (StableHlo.after hostOps0_1 (StableHlo.after hostOps0 (W0 m ρ c))) (Proc.devRef .tc main_arg0) = _
  after_results_simp <;> rfl
theorem arg2_3 : W3 m ρ c (Proc.devRef .tc main_arg2) = m ((c : Thread nD τ).loc main_arg2) := by
  show StableHlo.after hostOps0_2 (StableHlo.after hostOps0_1 (StableHlo.after hostOps0 (W0 m ρ c))) (Proc.devRef .tc main_arg2) = _
  after_results_simp <;> rfl
theorem arg3_3 : W3 m ρ c (Proc.devRef .tc main_arg3) = m ((c : Thread nD τ).loc main_arg3) := by
  show StableHlo.after hostOps0_2 (StableHlo.after hostOps0_1 (StableHlo.after hostOps0 (W0 m ρ c))) (Proc.devRef .tc main_arg3) = _
  after_results_simp <;> rfl
theorem arg4_3 : W3 m ρ c (Proc.devRef .tc main_arg4) = m ((c : Thread nD τ).loc main_arg4) := by
  show StableHlo.after hostOps0_2 (StableHlo.after hostOps0_1 (StableHlo.after hostOps0 (W0 m ρ c))) (Proc.devRef .tc main_arg4) = _
  after_results_simp <;> rfl
theorem arg5_3 : W3 m ρ c (Proc.devRef .tc main_arg5) = m ((c : Thread nD τ).loc main_arg5) := by
  show StableHlo.after hostOps0_2 (StableHlo.after hostOps0_1 (StableHlo.after hostOps0 (W0 m ρ c))) (Proc.devRef .tc main_arg5) = _
  after_results_simp <;> rfl
theorem arg6_3 : W3 m ρ c (Proc.devRef .tc main_arg6) = m ((c : Thread nD τ).loc main_arg6) := by
  show StableHlo.after hostOps0_2 (StableHlo.after hostOps0_1 (StableHlo.after hostOps0 (W0 m ρ c))) (Proc.devRef .tc main_arg6) = _
  after_results_simp <;> rfl
theorem arg7_3 : W3 m ρ c (Proc.devRef .tc main_arg7) = m ((c : Thread nD τ).loc main_arg7) := by
  show StableHlo.after hostOps0_2 (StableHlo.after hostOps0_1 (StableHlo.after hostOps0 (W0 m ρ c))) (Proc.devRef .tc main_arg7) = _
  after_results_simp <;> rfl

/-! ## Across the first dense call and the first aggregation stretch

The first dense call's arrays are the features, the first weight and its output: it leaves everything else alone,
and the aggregation stretch writes only its own sixteen results. -/

theorem src_4 : W4 m ρ c (Proc.devRef .tc main_v3) = val_main_v3 (F := F) (m ((c : Thread nD τ).loc main_arg1)) :=
  (W4_of_ne m ρ c main_v3 (by decide)).trans (src_3 m ρ c)
theorem tgt_4 : W4 m ρ c (Proc.devRef .tc main_v6) = val_main_v6 (F := F) (m ((c : Thread nD τ).loc main_arg1)) :=
  (W4_of_ne m ρ c main_v6 (by decide)).trans (tgt_3 m ρ c)
theorem norm_4 : W4 m ρ c (Proc.devRef .tc main_v31) = val_main_v31 (F := F) (m ((c : Thread nD τ).loc main_arg1)) :=
  (W4_of_ne m ρ c main_v31 (by decide)).trans (norm_3 m ρ c)

theorem src_5 : W5 m ρ c (Proc.devRef .tc main_v3) = val_main_v3 (F := F) (m ((c : Thread nD τ).loc main_arg1)) := by
  show StableHlo.after hostOps1 (W4 m ρ c) (Proc.devRef .tc main_v3) = _
  after_results_simp
  exact src_4 m ρ c
theorem tgt_5 : W5 m ρ c (Proc.devRef .tc main_v6) = val_main_v6 (F := F) (m ((c : Thread nD τ).loc main_arg1)) := by
  show StableHlo.after hostOps1 (W4 m ρ c) (Proc.devRef .tc main_v6) = _
  after_results_simp
  exact tgt_4 m ρ c
theorem norm_5 : W5 m ρ c (Proc.devRef .tc main_v31) = val_main_v31 (F := F) (m ((c : Thread nD τ).loc main_arg1)) := by
  show StableHlo.after hostOps1 (W4 m ρ c) (Proc.devRef .tc main_v31) = _
  after_results_simp
  exact norm_4 m ρ c
theorem arg3_5 : W5 m ρ c (Proc.devRef .tc main_arg3) = m ((c : Thread nD τ).loc main_arg3) := by
  show StableHlo.after hostOps1 (W4 m ρ c) (Proc.devRef .tc main_arg3) = _
  after_results_simp
  exact (W4_of_ne m ρ c main_arg3 (by decide)).trans (arg3_3 m ρ c)
theorem arg4_5 : W5 m ρ c (Proc.devRef .tc main_arg4) = m ((c : Thread nD τ).loc main_arg4) := by
  show StableHlo.after hostOps1 (W4 m ρ c) (Proc.devRef .tc main_arg4) = _
  after_results_simp
  exact (W4_of_ne m ρ c main_arg4 (by decide)).trans (arg4_3 m ρ c)
theorem arg5_5 : W5 m ρ c (Proc.devRef .tc main_arg5) = m ((c : Thread nD τ).loc main_arg5) := by
  show StableHlo.after hostOps1 (W4 m ρ c) (Proc.devRef .tc main_arg5) = _
  after_results_simp
  exact (W4_of_ne m ρ c main_arg5 (by decide)).trans (arg5_3 m ρ c)
theorem arg6_5 : W5 m ρ c (Proc.devRef .tc main_arg6) = m ((c : Thread nD τ).loc main_arg6) := by
  show StableHlo.after hostOps1 (W4 m ρ c) (Proc.devRef .tc main_arg6) = _
  after_results_simp
  exact (W4_of_ne m ρ c main_arg6 (by decide)).trans (arg6_3 m ρ c)
theorem arg7_5 : W5 m ρ c (Proc.devRef .tc main_arg7) = m ((c : Thread nD τ).loc main_arg7) := by
  show StableHlo.after hostOps1 (W4 m ρ c) (Proc.devRef .tc main_arg7) = _
  after_results_simp
  exact (W4_of_ne m ρ c main_arg7 (by decide)).trans (arg7_3 m ρ c)

/-- The first aggregation stretch applies the reference's aggregation to the first dense call's output. -/
theorem aggregated_5 : W5 m ρ c (Proc.devRef .tc main_v45)
    = aggregate (F := F) (m ((c : Thread nD τ).loc main_arg1)) (W4 m ρ c (Proc.devRef .tc main_v32)) := by
  show StableHlo.after hostOps1 (W4 m ρ c) (Proc.devRef .tc main_v45) = _
  after_results_simp
  rw [src_4, tgt_4, norm_4]
  rfl

/-! ## Across the first bias call, the second dense call and the second aggregation stretch -/

theorem arg4_6 : W6 m ρ c (Proc.devRef .tc main_arg4) = m ((c : Thread nD τ).loc main_arg4) :=
  (W6_of_ne m ρ c main_arg4 (by decide)).trans (arg4_5 m ρ c)

theorem src_7 : W7 m ρ c (Proc.devRef .tc main_v3) = val_main_v3 (F := F) (m ((c : Thread nD τ).loc main_arg1)) :=
  (W7_of_ne m ρ c main_v3 (by decide)).trans ((W6_of_ne m ρ c main_v3 (by decide)).trans (src_5 m ρ c))
theorem tgt_7 : W7 m ρ c (Proc.devRef .tc main_v6) = val_main_v6 (F := F) (m ((c : Thread nD τ).loc main_arg1)) :=
  (W7_of_ne m ρ c main_v6 (by decide)).trans ((W6_of_ne m ρ c main_v6 (by decide)).trans (tgt_5 m ρ c))
theorem norm_7 : W7 m ρ c (Proc.devRef .tc main_v31) = val_main_v31 (F := F) (m ((c : Thread nD τ).loc main_arg1)) :=
  (W7_of_ne m ρ c main_v31 (by decide)).trans ((W6_of_ne m ρ c main_v31 (by decide)).trans (norm_5 m ρ c))

theorem src_8 : W8 m ρ c (Proc.devRef .tc main_v3) = val_main_v3 (F := F) (m ((c : Thread nD τ).loc main_arg1)) := by
  show StableHlo.after hostOps3 (W7 m ρ c) (Proc.devRef .tc main_v3) = _
  after_results_simp
  exact src_7 m ρ c
theorem tgt_8 : W8 m ρ c (Proc.devRef .tc main_v6) = val_main_v6 (F := F) (m ((c : Thread nD τ).loc main_arg1)) := by
  show StableHlo.after hostOps3 (W7 m ρ c) (Proc.devRef .tc main_v6) = _
  after_results_simp
  exact tgt_7 m ρ c
theorem norm_8 : W8 m ρ c (Proc.devRef .tc main_v31) = val_main_v31 (F := F) (m ((c : Thread nD τ).loc main_arg1)) := by
  show StableHlo.after hostOps3 (W7 m ρ c) (Proc.devRef .tc main_v31) = _
  after_results_simp
  exact norm_7 m ρ c
theorem arg5_8 : W8 m ρ c (Proc.devRef .tc main_arg5) = m ((c : Thread nD τ).loc main_arg5) := by
  show StableHlo.after hostOps3 (W7 m ρ c) (Proc.devRef .tc main_arg5) = _
  after_results_simp
  exact (W7_of_ne m ρ c main_arg5 (by decide)).trans ((W6_of_ne m ρ c main_arg5 (by decide)).trans (arg5_5 m ρ c))
theorem arg6_8 : W8 m ρ c (Proc.devRef .tc main_arg6) = m ((c : Thread nD τ).loc main_arg6) := by
  show StableHlo.after hostOps3 (W7 m ρ c) (Proc.devRef .tc main_arg6) = _
  after_results_simp
  exact (W7_of_ne m ρ c main_arg6 (by decide)).trans ((W6_of_ne m ρ c main_arg6 (by decide)).trans (arg6_5 m ρ c))
theorem arg7_8 : W8 m ρ c (Proc.devRef .tc main_arg7) = m ((c : Thread nD τ).loc main_arg7) := by
  show StableHlo.after hostOps3 (W7 m ρ c) (Proc.devRef .tc main_arg7) = _
  after_results_simp
  exact (W7_of_ne m ρ c main_arg7 (by decide)).trans ((W6_of_ne m ρ c main_arg7 (by decide)).trans (arg7_5 m ρ c))

/-- The second aggregation stretch applies the reference's aggregation to the second dense call's output. -/
theorem aggregated_8 : W8 m ρ c (Proc.devRef .tc main_v60)
    = aggregate (F := F) (m ((c : Thread nD τ).loc main_arg1)) (W7 m ρ c (Proc.devRef .tc main_v47)) := by
  show StableHlo.after hostOps3 (W7 m ρ c) (Proc.devRef .tc main_v60) = _
  after_results_simp
  rw [src_7, tgt_7, norm_7]
  rfl

/-! ## Across the second bias call, the third dense call and the third aggregation stretch -/

theorem arg6_9 : W9 m ρ c (Proc.devRef .tc main_arg6) = m ((c : Thread nD τ).loc main_arg6) :=
  (W9_of_ne m ρ c main_arg6 (by decide)).trans (arg6_8 m ρ c)

theorem src_10 : W10 m ρ c (Proc.devRef .tc main_v3) = val_main_v3 (F := F) (m ((c : Thread nD τ).loc main_arg1)) :=
  (W10_of_ne m ρ c main_v3 (by decide)).trans ((W9_of_ne m ρ c main_v3 (by decide)).trans (src_8 m ρ c))
theorem tgt_10 : W10 m ρ c (Proc.devRef .tc main_v6) = val_main_v6 (F := F) (m ((c : Thread nD τ).loc main_arg1)) :=
  (W10_of_ne m ρ c main_v6 (by decide)).trans ((W9_of_ne m ρ c main_v6 (by decide)).trans (tgt_8 m ρ c))
theorem norm_10 : W10 m ρ c (Proc.devRef .tc main_v31) = val_main_v31 (F := F) (m ((c : Thread nD τ).loc main_arg1)) :=
  (W10_of_ne m ρ c main_v31 (by decide)).trans ((W9_of_ne m ρ c main_v31 (by decide)).trans (norm_8 m ρ c))

theorem arg7_11 : W11 m ρ c (Proc.devRef .tc main_arg7) = m ((c : Thread nD τ).loc main_arg7) := by
  show StableHlo.after hostOps5 (W10 m ρ c) (Proc.devRef .tc main_arg7) = _
  after_results_simp
  exact (W10_of_ne m ρ c main_arg7 (by decide)).trans ((W9_of_ne m ρ c main_arg7 (by decide)).trans (arg7_8 m ρ c))

/-- The third aggregation stretch applies the reference's aggregation to the third dense call's output. -/
theorem aggregated_11 : W11 m ρ c (Proc.devRef .tc main_v75)
    = aggregate (F := F) (m ((c : Thread nD τ).loc main_arg1)) (W10 m ρ c (Proc.devRef .tc main_v62)) := by
  show StableHlo.after hostOps5 (W10 m ρ c) (Proc.devRef .tc main_v75) = _
  after_results_simp
  rw [src_10, tgt_10, norm_10]
  rfl

end Cert.KernelIdeal.Hand

end
-- ==== Proof.WholeArray.lean ====
/-
  The three whole-array functions the kernels compute, index by index over the 50000 × 128 node-feature
  array: the product of the features with a 128 × 128 weight (entry (r, q) is the sum over k of
  X(r, k) · W(k, q)); the bias added along every row followed by the maximum with zero; and the bias alone.
-/
import proofs.«125980_j23845658428197_1_alg».proof.Proof.Gen.KernelIdeal
import Idealize.ShloMosaic.Lib.ValueIdx
import Idealize.ShloMosaic.PureOps.Ideal.Laws

noncomputable section

namespace Cert.KernelIdeal.Hand

open Cert.KernelIdeal Idealize.ShloMosaic Idealize.ShloMosaic.TcCoe Idealize.SL.Sem

theorem origin2 : (![0, 0] : Fin 2 → Nat) = fun _ => 0 := funext fun a => by fin_cases a <;> rfl
theorem origin1 : (![0] : Fin 1 → Nat) = fun _ => 0 := funext fun a => by fin_cases a; rfl

/-- Entry k of node `i 0`'s feature row. -/
abbrev RowAt (i : S50000x128.Idx) (k : Fin 128) : S50000x128.Idx := fun a => match a with
  | ⟨0, _⟩ => ⟨(i 0).val, (i 0).isLt⟩
  | ⟨1, _⟩ => ⟨k.val, k.isLt⟩
/-- Entry k of the weight's column `i 1`. -/
abbrev ColAt (i : S50000x128.Idx) (k : Fin 128) : S128x128.Idx := fun a => match a with
  | ⟨0, _⟩ => ⟨k.val, k.isLt⟩
  | ⟨1, _⟩ => ⟨(i 1).val, (i 1).isLt⟩
/-- The bias entry of column `i 1`. -/
abbrev BiasAt (i : S50000x128.Idx) : S128.Idx := fun a => match a with
  | ⟨0, _⟩ => ⟨(i 1).val, (i 1).isLt⟩

/-- Features times weight. -/
def product (X : Vec Ideal S50000x128 .f32) (W : Vec Ideal S128x128 .f32) : Vec Ideal S50000x128 .f32 :=
  fun i => ∑ k : Fin 128, X (RowAt i k) * W (ColAt i k)

/-- Bias along the rows, then the maximum with zero. -/
def biasMax (A : Vec Ideal S50000x128 .f32) (b : Vec Ideal S128 .f32) : Vec Ideal S50000x128 .f32 :=
  fun i => max (A i + b (BiasAt i)) (Ideal.ofBits .f32 0x00000000#32)

/-- Bias along the rows. -/
def biasOnly (A : Vec Ideal S50000x128 .f32) (b : Vec Ideal S128 .f32) : Vec Ideal S50000x128 .f32 :=
  fun i => A i + b (BiasAt i)

end Cert.KernelIdeal.Hand

end
-- ==== Proof.Bridge.lean ====
/-
  At the ideal instance the reference's host operations are the whole-array functions the kernels compute: the
  host's `dot_general` is the sum over k of X(r, k) · W(k, q); the two broadcasts of the bias, one to a row and one
  down the rows, read b(q) at column q; the maximum with the zero splat is the maximum with zero.
-/
import proofs.«125980_j23845658428197_1_alg».proof.Proof.RefSpec
import proofs.«125980_j23845658428197_1_alg».proof.Proof.WholeArray

noncomputable section

namespace Cert.KernelIdeal.Hand

open Cert.KernelIdeal Idealize.ShloMosaic Idealize.ShloMosaic.TcCoe Idealize.SL.Sem
open Cert.ReferenceIdeal.ReadP Cert.ReferenceIdeal.Hand

/-- The host's product is the whole product. -/
theorem dense_eq (X : Vec Ideal S50000x128 .f32) (W : Vec Ideal S128x128 .f32) : dense (F := Ideal) X W = product X W := by
  funext i
  refine (val_main_v32_apply X W i).trans ?_
  refine Finset.sum_congr rfl fun k _ => ?_
  have hl : lidx_main_v32 i k = RowAt i k := funext fun a => by
    match a with
    | ⟨0, _⟩ => rfl
    | ⟨1, _⟩ => rfl
  have hr : ridx_main_v32 i k = ColAt i k := funext fun a => by
    match a with
    | ⟨0, _⟩ => rfl
    | ⟨1, _⟩ => rfl
  rw [hl, hr]

/-- The bias broadcast to a row and down the rows, added: the bias along every row. -/
theorem biased_eq (A : Vec Ideal S50000x128 .f32) (b : Vec Ideal S128 .f32) : biased (F := Ideal) A b = biasOnly A b := by
  funext i
  show A i + val_main_v47 (F := Ideal) b i = A i + b (BiasAt i)
  rw [val_main_v47_apply, val_main_v46_apply]
  have hb : idx_main_v46 (idx_main_v47 i) = BiasAt i := funext fun a => by
    match a with
    | ⟨0, _⟩ => rfl
  rw [hb]

/-- The maximum with the zero splat after the bias. -/
theorem rectified_eq (A : Vec Ideal S50000x128 .f32) (b : Vec Ideal S128 .f32) : rectified (F := Ideal) (biasOnly A b) = biasMax A b := by
  funext i
  show max (biasOnly A b i) (val_main_call1_v0 (F := Ideal) i) = _
  rw [val_main_call1_v0_apply, val_main_call1_cst_apply]
  rfl

end Cert.KernelIdeal.Hand

end
-- ==== Proof.Payload.lean ====
/-
  The payloads of the six kernel bodies read at an index, at the ideal instance.

  A dense body multiplies its block of 5000 node rows by the resident 128 × 128 weight: the entry in
  row r and column q of what it stores is the sum over k of x(r, k) · w(k, q). The two casts to
  bfloat16 in front of the product are the identity on extended reals, the accumulator is the zero
  splat, and in the second and third layers the loaded block first passes an identity shape cast.

  A bias body adds the bias vector along every row, b(q) at column q: the vector is cast to one row
  and that row is broadcast down the block. The first two layers then take the maximum with zero.
-/
import proofs.«125980_j23845658428197_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Hand

open Cert.KernelIdeal Cert.KernelIdeal.Gen Idealize.ShloMosaic Idealize.ShloMosaic.TcCoe Idealize.SL.Sem

/-! ## The product's operand indices -/

theorem lhs_blk_0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem lhs_blk_1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
theorem rhs_blk_0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
theorem rhs_blk_1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- Entry k of row `i 0` of a block of node rows. -/
abbrev rowAt (i : S5000x128.Idx) (k : Fin 128) : S5000x128.Idx := fun a => match a with
  | ⟨0, _⟩ => ⟨(i 0).val, (i 0).isLt⟩
  | ⟨1, _⟩ => ⟨k.val, k.isLt⟩
/-- Entry k of column `i 1` of the weight. -/
abbrev colAt (i : S5000x128.Idx) (k : Fin 128) : S128x128.Idx := fun a => match a with
  | ⟨0, _⟩ => ⟨k.val, k.isLt⟩
  | ⟨1, _⟩ => ⟨(i 1).val, (i 1).isLt⟩

/-- The block product into a zero accumulator, at an index: the row of the left operand against the column of
    the right one. -/
theorem blockProduct_apply {φ₁ φ₂ : FTy} (x : FVec Ideal S5000x128 φ₁) (w : FVec Ideal S128x128 φ₂) (i : S5000x128.Idx) :
    matmul (F := Ideal) dot_S5000x128_S128x128_S5000x128_1_0_0_1_n_n none x w (constant (F := Ideal) S5000x128 .f32 0x00000000#32) i
      = ∑ k : Fin 128, x (rowAt i k) * w (colAt i k) := by
  simp only [matmul]
  rw [Ideal.matmul_constant_zero_apply, ← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx i ((ValueIdx.contrEquiv1 dot_S5000x128_S128x128_S5000x128_1_0_0_1_n_n 128 rfl rfl).symm k) = rowAt i k := funext fun a => Fin.ext (by
    match a with
    | ⟨0, _⟩ => exact lhs_blk_0 _ _
    | ⟨1, _⟩ => exact (lhs_blk_1 _ _).trans hk)
  have er : dot_S5000x128_S128x128_S5000x128_1_0_0_1_n_n.rhsIdx i ((ValueIdx.contrEquiv1 dot_S5000x128_S128x128_S5000x128_1_0_0_1_n_n 128 rfl rfl).symm k) = colAt i k := funext fun a => Fin.ext (by
    match a with
    | ⟨0, _⟩ => exact (rhs_blk_0 _ _).trans hk
    | ⟨1, _⟩ => exact rhs_blk_1 _ _)
  rw [el, er]

/-! ## The dense bodies -/

/-- First layer: the stored block at an index. -/
theorem dense0_apply (x : Vec Ideal S5000x128 .f32) (w : Vec Ideal S128x128 .f32) (i : S5000x128.Idx) :
    k0_pay1 (F := Ideal) x w i = ∑ k : Fin 128, x (rowAt i k) * w (colAt i k) := by
  unfold k0_pay1
  exact blockProduct_apply _ _ i

/-- Second layer: the same after the identity cast of the loaded block. -/
theorem dense2_apply (x : Vec Ideal S5000x128 .f32) (w : Vec Ideal S128x128 .f32) (i : S5000x128.Idx) :
    k2_pay1 (F := Ideal) x w i = ∑ k : Fin 128, x (rowAt i k) * w (colAt i k) := by
  unfold k2_pay1
  rw [shapeCast_self]
  exact blockProduct_apply _ _ i

/-- Third layer. -/
theorem dense4_apply (x : Vec Ideal S5000x128 .f32) (w : Vec Ideal S128x128 .f32) (i : S5000x128.Idx) :
    k4_pay1 (F := Ideal) x w i = ∑ k : Fin 128, x (rowAt i k) * w (colAt i k) := by
  unfold k4_pay1
  rw [shapeCast_self]
  exact blockProduct_apply _ _ i

/-! ## The bias bodies -/

/-- The bias entry that column `i 1` of a block receives. -/
abbrev biasAt (i : S5000x128.Idx) : S128.Idx := fun a => match a with
  | ⟨0, _⟩ => ⟨(i 1).val, (i 1).isLt⟩

/-- The bias vector cast to one row and broadcast down the block, at an index. -/
theorem biasRows_apply (b : Vec Ideal S128 .f32) (i : S5000x128.Idx) :
    broadcastTo S5000x128 (shapeCast S1x128 b shapeCasts_S128_S1x128) broadcasts_S1x128_S5000x128 i = b (biasAt i) := by
  have hrow : ∀ j : S1x128.Idx, shapeCast S1x128 b shapeCasts_S128_S1x128 j = b (fun a => match a with | ⟨0, _⟩ => ⟨(j 1).val, (j 1).isLt⟩) := fun j =>
    shapeCast_apply b shapeCasts_S128_S1x128 j _ (by
      have h0 : (j 0).val = 0 := by have h : (j 0).val < 1 := (j 0).isLt; omega
      simp [Shape.rowMajor_val_two, Shape.rowMajor_val_one, h0])
  rw [broadcastTo_apply _ broadcasts_S1x128_S5000x128 i (fun a => match a with | ⟨0, _⟩ => ⟨0, Nat.one_pos⟩ | ⟨1, _⟩ => ⟨(i 1).val, (i 1).isLt⟩) (fun a => match a with
    | ⟨0, _⟩ => by show 0 = if (1 : Nat) = 1 then 0 else _; rw [if_pos rfl]
    | ⟨1, _⟩ => by show (i 1).val = if (128 : Nat) = 1 then 0 else (i 1).val; rw [if_neg (by decide)])]
  rw [hrow]

/-- First and second layers: bias, then the maximum with zero. -/
theorem biasRelu1_apply (a : Vec Ideal S5000x128 .f32) (b : Vec Ideal S128 .f32) (i : S5000x128.Idx) :
    k1_pay1 (F := Ideal) a b i = max (a i + b (biasAt i)) (Ideal.ofBits .f32 0x00000000#32) := by
  unfold k1_pay1
  rw [shapeCast_self]
  show max (a i + broadcastTo S5000x128 (shapeCast S1x128 b shapeCasts_S128_S1x128) broadcasts_S1x128_S5000x128 i) _ = _
  rw [biasRows_apply]
  rfl

theorem biasRelu3_apply (a : Vec Ideal S5000x128 .f32) (b : Vec Ideal S128 .f32) (i : S5000x128.Idx) :
    k3_pay1 (F := Ideal) a b i = max (a i + b (biasAt i)) (Ideal.ofBits .f32 0x00000000#32) := by
  unfold k3_pay1
  rw [shapeCast_self]
  show max (a i + broadcastTo S5000x128 (shapeCast S1x128 b shapeCasts_S128_S1x128) broadcasts_S1x128_S5000x128 i) _ = _
  rw [biasRows_apply]
  rfl

/-- Third layer: bias only. -/
theorem bias5_apply (a : Vec Ideal S5000x128 .f32) (b : Vec Ideal S128 .f32) (i : S5000x128.Idx) :
    k5_pay1 (F := Ideal) a b i = a i + b (biasAt i) := by
  unfold k5_pay1
  rw [shapeCast_self]
  show a i + broadcastTo S5000x128 (shapeCast S1x128 b shapeCasts_S128_S1x128) broadcasts_S1x128_S5000x128 i = _
  rw [biasRows_apply]

end Cert.KernelIdeal.Hand

end
-- ==== Proof.DenseRegion0.lean ====
/-
  Pallas call 0 (a dense layer): the array its pipeline leaves is the whole product.

  The grid has ten points; point t multiplies rows 5000·t … 5000·t + 4999 of the feature array, fetched as
  one block, by the resident weight, and writes the 5000 × 128 result back as block t of the output. An
  entry of that block is the row of the fetched block against a column of the weight, and the fetched
  block's row is the feature array's row 5000·t + r: so what point t writes back is block t of the whole
  product, and the ten blocks tile the output array.
-/
import proofs.«125980_j23845658428197_1_alg».proof.Proof.Gen.KernelIdeal.Frame
import proofs.«125980_j23845658428197_1_alg».proof.Proof.Payload
import proofs.«125980_j23845658428197_1_alg».proof.Proof.WholeArray

set_option maxRecDepth 16384

noncomputable section

namespace Cert.KernelIdeal.Hand

open Cert.KernelIdeal Cert.KernelIdeal.Gen Idealize.ShloMosaic Idealize.ShloMosaic.TcCoe Idealize.SL.Sem
open Idealize.ShloMosaic.Pipeline (Dat Cfg Window)

variable (V : (c : Dev nD) → (b : Ref sig .tc) → Buf (Elt Ideal) ((c : Thread nD τ).loc b))

/-- The index maps over the grid: the feature and output windows sit at block row t, the weight at its one block. -/
theorem blocks0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point t writes back is block t of the whole product of the arrays the region was entered with. -/
theorem written0 (c : Dev nD) (t : Fin cfg0.N) :
    (dat0 V c).flushed 2 t = ((cfg0.win 2).blk t).view.read (Elt Ideal) (product (V c main_arg0) (V c main_arg2)) := by
  show (cfg0.win 2).cut (grid0.coords t) ((dat0 V c).after 2 t) = _
  rw [after0_2]
  unfold out0_2
  rw [View.canon_unit_zero origin2]
  simp only [View.ld_unit_zero (S := S5000x128) origin2, View.ld_unit_zero (S := S128x128) origin2]
  obtain ⟨e0, e1, e2, e3, e4, e5⟩ := blocks0 t
  funext j
  show k0_pay1 (F := Ideal) (iblk0 V c 0 t) (iblk0 V c 1 t) j = product (V c main_arg0) (V c main_arg2) (((cfg0.win 2).blk t).view.emb j)
  refine (dense0_apply (iblk0 V c 0 t) (iblk0 V c 1 t) j).trans ?_
  refine Finset.sum_congr rfl fun k _ => ?_
  have hx : iblk0 V c 0 t (rowAt j k) = V c main_arg0 (RowAt (((cfg0.win 2).blk t).view.emb j) k) := by
    show V c main_arg0 (((cfg0.win 0).blk t).view.emb (rowAt j k)) = _
    refine congrArg (V c main_arg0) (funext fun a => Fin.ext ?_)
    match a with
    | ⟨0, _⟩ => show win0_0.index t (0 : Fin 2) * 5000 + 1 * (j 0).val = win0_2.index t (0 : Fin 2) * 5000 + 1 * (j 0).val; omega
    | ⟨1, _⟩ => show win0_0.index t (1 : Fin 2) * 128 + 1 * k.val = k.val; omega
  have hw : iblk0 V c 1 t (colAt j k) = V c main_arg2 (ColAt (((cfg0.win 2).blk t).view.emb j) k) := by
    show V c main_arg2 (((cfg0.win 1).blk t).view.emb (colAt j k)) = _
    refine congrArg (V c main_arg2) (funext fun a => Fin.ext ?_)
    match a with
    | ⟨0, _⟩ => show win0_1.index t (0 : Fin 2) * 128 + 1 * k.val = k.val; omega
    | ⟨1, _⟩ => show win0_1.index t (1 : Fin 2) * 128 + 1 * (j 1).val = win0_2.index t (1 : Fin 2) * 128 + 1 * (j 1).val; omega
  rw [hx, hw]

/-- An index of the output array lies in point t's block when each coordinate lies in the block's range. -/
theorem inBlock0 (t : Fin cfg0.N) (i : S50000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v32).slice (win0_2.rect t)).set ↔ _
  rw [View.set_slice_whole, Rect.mem_set_unit]
  exact Iff.rfl

/-- Row r of the output lies in the block of point r / 5000. -/
theorem tiled0 (i : S50000x128.Idx) : ∃ t : Fin cfg0.N, (cfg0.win 2).flush t = true ∧ i ∈ ((cfg0.win 2).blk t).view.set := by
  have hi0 : (i 0).val < 50000 := (i 0).isLt
  have hi1 : (i 1).val < 128 := (i 1).isLt
  have hN : cfg0.N = 10 := N_0
  let t : Fin cfg0.N := ⟨(i 0).val / 5000, by rw [hN]; omega⟩
  have ht : t.val = (i 0).val / 5000 := rfl
  obtain ⟨e0, e1, e2, e3, e4, e5⟩ := blocks0 t
  refine ⟨t, flush0_2 t, ?_⟩
  rw [inBlock0]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 128 ≤ (i 1).val ∧ (i 1).val < win0_2.index t (1 : Fin 2) * 128 + 128; omega

/-- The output array after the region: the whole product. -/
theorem dense0_array (c : Dev nD) : (dat0 V c).arrAt 2 cfg0.N = product (V c main_arg0) (V c main_arg2) :=
  (dat0 V c).arrAt_eq_of_cover 2 (product (V c main_arg0) (V c main_arg2)) (fun t _ => written0 V c t) tiled0

end Cert.KernelIdeal.Hand

end
-- ==== Proof.DenseRegion2.lean ====
/-
  Pallas call 2 (a dense layer): the array its pipeline leaves is the whole product.

  The grid has ten points; point t multiplies rows 5000·t … 5000·t + 4999 of the feature array, fetched as
  one block, by the resident weight, and writes the 5000 × 128 result back as block t of the output. An
  entry of that block is the row of the fetched block against a column of the weight, and the fetched
  block's row is the feature array's row 5000·t + r: so what point t writes back is block t of the whole
  product, and the ten blocks tile the output array.
-/
import proofs.«125980_j23845658428197_1_alg».proof.Proof.Gen.KernelIdeal.Frame
import proofs.«125980_j23845658428197_1_alg».proof.Proof.Payload
import proofs.«125980_j23845658428197_1_alg».proof.Proof.WholeArray

set_option maxRecDepth 16384

noncomputable section

namespace Cert.KernelIdeal.Hand

open Cert.KernelIdeal Cert.KernelIdeal.Gen Idealize.ShloMosaic Idealize.ShloMosaic.TcCoe Idealize.SL.Sem
open Idealize.ShloMosaic.Pipeline (Dat Cfg Window)

variable (V : (c : Dev nD) → (b : Ref sig .tc) → Buf (Elt Ideal) ((c : Thread nD τ).loc b))

/-- The index maps over the grid: the feature and output windows sit at block row t, the weight at its one block. -/
theorem blocks2 : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- What point t writes back is block t of the whole product of the arrays the region was entered with. -/
theorem written2 (c : Dev nD) (t : Fin cfg2.N) :
    (dat2 V c).flushed 2 t = ((cfg2.win 2).blk t).view.read (Elt Ideal) (product (V c main_v46) (V c main_arg4)) := by
  show (cfg2.win 2).cut (grid2.coords t) ((dat2 V c).after 2 t) = _
  rw [after2_2]
  unfold out2_2
  rw [View.canon_unit_zero origin2]
  simp only [View.ld_unit_zero (S := S5000x128) origin2, View.ld_unit_zero (S := S128x128) origin2]
  obtain ⟨e0, e1, e2, e3, e4, e5⟩ := blocks2 t
  funext j
  show k2_pay1 (F := Ideal) (iblk2 V c 0 t) (iblk2 V c 1 t) j = product (V c main_v46) (V c main_arg4) (((cfg2.win 2).blk t).view.emb j)
  refine (dense2_apply (iblk2 V c 0 t) (iblk2 V c 1 t) j).trans ?_
  refine Finset.sum_congr rfl fun k _ => ?_
  have hx : iblk2 V c 0 t (rowAt j k) = V c main_v46 (RowAt (((cfg2.win 2).blk t).view.emb j) k) := by
    show V c main_v46 (((cfg2.win 0).blk t).view.emb (rowAt j k)) = _
    refine congrArg (V c main_v46) (funext fun a => Fin.ext ?_)
    match a with
    | ⟨0, _⟩ => show win2_0.index t (0 : Fin 2) * 5000 + 1 * (j 0).val = win2_2.index t (0 : Fin 2) * 5000 + 1 * (j 0).val; omega
    | ⟨1, _⟩ => show win2_0.index t (1 : Fin 2) * 128 + 1 * k.val = k.val; omega
  have hw : iblk2 V c 1 t (colAt j k) = V c main_arg4 (ColAt (((cfg2.win 2).blk t).view.emb j) k) := by
    show V c main_arg4 (((cfg2.win 1).blk t).view.emb (colAt j k)) = _
    refine congrArg (V c main_arg4) (funext fun a => Fin.ext ?_)
    match a with
    | ⟨0, _⟩ => show win2_1.index t (0 : Fin 2) * 128 + 1 * k.val = k.val; omega
    | ⟨1, _⟩ => show win2_1.index t (1 : Fin 2) * 128 + 1 * (j 1).val = win2_2.index t (1 : Fin 2) * 128 + 1 * (j 1).val; omega
  rw [hx, hw]

/-- An index of the output array lies in point t's block when each coordinate lies in the block's range. -/
theorem inBlock2 (t : Fin cfg2.N) (i : S50000x128.Idx) :
    i ∈ ((cfg2.win 2).blk t).view.set ↔ ∀ a : Fin 2, win2_2.index t a * S5000x128.size a ≤ (i a).val ∧ (i a).val < win2_2.index t a * S5000x128.size a + S5000x128.size a := by
  show i ∈ ((View.whole main_v47).slice (win2_2.rect t)).set ↔ _
  rw [View.set_slice_whole, Rect.mem_set_unit]
  exact Iff.rfl

/-- Row r of the output lies in the block of point r / 5000. -/
theorem tiled2 (i : S50000x128.Idx) : ∃ t : Fin cfg2.N, (cfg2.win 2).flush t = true ∧ i ∈ ((cfg2.win 2).blk t).view.set := by
  have hi0 : (i 0).val < 50000 := (i 0).isLt
  have hi1 : (i 1).val < 128 := (i 1).isLt
  have hN : cfg2.N = 10 := N_2
  let t : Fin cfg2.N := ⟨(i 0).val / 5000, by rw [hN]; omega⟩
  have ht : t.val = (i 0).val / 5000 := rfl
  obtain ⟨e0, e1, e2, e3, e4, e5⟩ := blocks2 t
  refine ⟨t, flush2_2 t, ?_⟩
  rw [inBlock2]
  intro a
  match a with
  | ⟨0, _⟩ => show win2_2.index t (0 : Fin 2) * 5000 ≤ (i 0).val ∧ (i 0).val < win2_2.index t (0 : Fin 2) * 5000 + 5000; omega
  | ⟨1, _⟩ => show win2_2.index t (1 : Fin 2) * 128 ≤ (i 1).val ∧ (i 1).val < win2_2.index t (1 : Fin 2) * 128 + 128; omega

/-- The output array after the region: the whole product. -/
theorem dense2_array (c : Dev nD) : (dat2 V c).arrAt 2 cfg2.N = product (V c main_v46) (V c main_arg4) :=
  (dat2 V c).arrAt_eq_of_cover 2 (product (V c main_v46) (V c main_arg4)) (fun t _ => written2 V c t) tiled2

end Cert.KernelIdeal.Hand

end
-- ==== Proof.DenseRegion4.lean ====
/-
  Pallas call 4 (a dense layer): the array its pipeline leaves is the whole product.

  The grid has ten points; point t multiplies rows 5000·t … 5000·t + 4999 of the feature array, fetched as
  one block, by the resident weight, and writes the 5000 × 128 result back as block t of the output. An
  entry of that block is the row of the fetched block against a column of the weight, and the fetched
  block's row is the feature array's row 5000·t + r: so what point t writes back is block t of the whole
  product, and the ten blocks tile the output array.
-/
import proofs.«125980_j23845658428197_1_alg».proof.Proof.Gen.KernelIdeal.Frame
import proofs.«125980_j23845658428197_1_alg».proof.Proof.Payload
import proofs.«125980_j23845658428197_1_alg».proof.Proof.WholeArray

set_option maxRecDepth 16384

noncomputable section

namespace Cert.KernelIdeal.Hand

open Cert.KernelIdeal Cert.KernelIdeal.Gen Idealize.ShloMosaic Idealize.ShloMosaic.TcCoe Idealize.SL.Sem
open Idealize.ShloMosaic.Pipeline (Dat Cfg Window)

variable (V : (c : Dev nD) → (b : Ref sig .tc) → Buf (Elt Ideal) ((c : Thread nD τ).loc b))

/-- The index maps over the grid: the feature and output windows sit at block row t, the weight at its one block. -/
theorem blocks4 : ∀ t : Fin cfg4.N,
    win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0 :=
  (by decide +kernel : ∀ t : Fin grid4.N, _)

/-- What point t writes back is block t of the whole product of the arrays the region was entered with. -/
theorem written4 (c : Dev nD) (t : Fin cfg4.N) :
    (dat4 V c).flushed 2 t = ((cfg4.win 2).blk t).view.read (Elt Ideal) (product (V c main_v61) (V c main_arg6)) := by
  show (cfg4.win 2).cut (grid4.coords t) ((dat4 V c).after 2 t) = _
  rw [after4_2]
  unfold out4_2
  rw [View.canon_unit_zero origin2]
  simp only [View.ld_unit_zero (S := S5000x128) origin2, View.ld_unit_zero (S := S128x128) origin2]
  obtain ⟨e0, e1, e2, e3, e4, e5⟩ := blocks4 t
  funext j
  show k4_pay1 (F := Ideal) (iblk4 V c 0 t) (iblk4 V c 1 t) j = product (V c main_v61) (V c main_arg6) (((cfg4.win 2).blk t).view.emb j)
  refine (dense4_apply (iblk4 V c 0 t) (iblk4 V c 1 t) j).trans ?_
  refine Finset.sum_congr rfl fun k _ => ?_
  have hx : iblk4 V c 0 t (rowAt j k) = V c main_v61 (RowAt (((cfg4.win 2).blk t).view.emb j) k) := by
    show V c main_v61 (((cfg4.win 0).blk t).view.emb (rowAt j k)) = _
    refine congrArg (V c main_v61) (funext fun a => Fin.ext ?_)
    match a with
    | ⟨0, _⟩ => show win4_0.index t (0 : Fin 2) * 5000 + 1 * (j 0).val = win4_2.index t (0 : Fin 2) * 5000 + 1 * (j 0).val; omega
    | ⟨1, _⟩ => show win4_0.index t (1 : Fin 2) * 128 + 1 * k.val = k.val; omega
  have hw : iblk4 V c 1 t (colAt j k) = V c main_arg6 (ColAt (((cfg4.win 2).blk t).view.emb j) k) := by
    show V c main_arg6 (((cfg4.win 1).blk t).view.emb (colAt j k)) = _
    refine congrArg (V c main_arg6) (funext fun a => Fin.ext ?_)
    match a with
    | ⟨0, _⟩ => show win4_1.index t (0 : Fin 2) * 128 + 1 * k.val = k.val; omega
    | ⟨1, _⟩ => show win4_1.index t (1 : Fin 2) * 128 + 1 * (j 1).val = win4_2.index t (1 : Fin 2) * 128 + 1 * (j 1).val; omega
  rw [hx, hw]

/-- An index of the output array lies in point t's block when each coordinate lies in the block's range. -/
theorem inBlock4 (t : Fin cfg4.N) (i : S50000x128.Idx) :
    i ∈ ((cfg4.win 2).blk t).view.set ↔ ∀ a : Fin 2, win4_2.index t a * S5000x128.size a ≤ (i a).val ∧ (i a).val < win4_2.index t a * S5000x128.size a + S5000x128.size a := by
  show i ∈ ((View.whole main_v62).slice (win4_2.rect t)).set ↔ _
  rw [View.set_slice_whole, Rect.mem_set_unit]
  exact Iff.rfl

/-- Row r of the output lies in the block of point r / 5000. -/
theorem tiled4 (i : S50000x128.Idx) : ∃ t : Fin cfg4.N, (cfg4.win 2).flush t = true ∧ i ∈ ((cfg4.win 2).blk t).view.set := by
  have hi0 : (i 0).val < 50000 := (i 0).isLt
  have hi1 : (i 1).val < 128 := (i 1).isLt
  have hN : cfg4.N = 10 := N_4
  let t : Fin cfg4.N := ⟨(i 0).val / 5000, by rw [hN]; omega⟩
  have ht : t.val = (i 0).val / 5000 := rfl
  obtain ⟨e0, e1, e2, e3, e4, e5⟩ := blocks4 t
  refine ⟨t, flush4_2 t, ?_⟩
  rw [inBlock4]
  intro a
  match a with
  | ⟨0, _⟩ => show win4_2.index t (0 : Fin 2) * 5000 ≤ (i 0).val ∧ (i 0).val < win4_2.index t (0 : Fin 2) * 5000 + 5000; omega
  | ⟨1, _⟩ => show win4_2.index t (1 : Fin 2) * 128 ≤ (i 1).val ∧ (i 1).val < win4_2.index t (1 : Fin 2) * 128 + 128; omega

/-- The output array after the region: the whole product. -/
theorem dense4_array (c : Dev nD) : (dat4 V c).arrAt 2 cfg4.N = product (V c main_v61) (V c main_arg6) :=
  (dat4 V c).arrAt_eq_of_cover 2 (product (V c main_v61) (V c main_arg6)) (fun t _ => written4 V c t) tiled4

end Cert.KernelIdeal.Hand

end
-- ==== Proof.BiasRegion1.lean ====
/-
  Pallas call 1 (bias and the maximum with zero): the array its pipeline leaves is the bias added along every row of the
  aggregated features, cut off below at zero.

  Point t of the ten fetches rows 5000·t … 5000·t + 4999 of the aggregated features as one block, the bias
  vector whole, and writes the block with b(q) added at column q and the maximum with zero taken back as block t of the output; the
  ten blocks tile the output array.
-/
import proofs.«125980_j23845658428197_1_alg».proof.Proof.Gen.KernelIdeal.Frame
import proofs.«125980_j23845658428197_1_alg».proof.Proof.Payload
import proofs.«125980_j23845658428197_1_alg».proof.Proof.WholeArray

set_option maxRecDepth 16384

noncomputable section

namespace Cert.KernelIdeal.Hand

open Cert.KernelIdeal Cert.KernelIdeal.Gen Idealize.ShloMosaic Idealize.ShloMosaic.TcCoe Idealize.SL.Sem
open Idealize.ShloMosaic.Pipeline (Dat Cfg Window)

variable (V : (c : Dev nD) → (b : Ref sig .tc) → Buf (Elt Ideal) ((c : Thread nD τ).loc b))

/-- The index maps over the grid: the feature and output windows sit at block row t, the bias at its one block. -/
theorem blocks1 : ∀ t : Fin cfg1.N,
    win1_0.index t (0 : Fin 2) = t.val ∧ win1_0.index t (1 : Fin 2) = 0
    ∧ win1_1.index t (0 : Fin 1) = 0
    ∧ win1_2.index t (0 : Fin 2) = t.val ∧ win1_2.index t (1 : Fin 2) = 0 :=
  (by decide +kernel : ∀ t : Fin grid1.N, _)

/-- What point t writes back is block t of the whole-array function of the arrays the region was entered with. -/
theorem written1 (c : Dev nD) (t : Fin cfg1.N) :
    (dat1 V c).flushed 2 t = ((cfg1.win 2).blk t).view.read (Elt Ideal) (biasMax (V c main_v45) (V c main_arg3)) := by
  show (cfg1.win 2).cut (grid1.coords t) ((dat1 V c).after 2 t) = _
  rw [after1_2]
  unfold out1_2
  rw [View.canon_unit_zero origin2]
  simp only [View.ld_unit_zero (S := S5000x128) origin2, View.ld_unit_zero (S := S128) origin1]
  obtain ⟨e0, e1, e2, e3, e4⟩ := blocks1 t
  funext j
  show k1_pay1 (F := Ideal) (iblk1 V c 0 t) (iblk1 V c 1 t) j = biasMax (V c main_v45) (V c main_arg3) (((cfg1.win 2).blk t).view.emb j)
  refine (biasRelu1_apply (iblk1 V c 0 t) (iblk1 V c 1 t) j).trans ?_
  have ha : iblk1 V c 0 t j = V c main_v45 (((cfg1.win 2).blk t).view.emb j) := by
    show V c main_v45 (((cfg1.win 0).blk t).view.emb j) = _
    refine congrArg (V c main_v45) (funext fun a => Fin.ext ?_)
    match a with
    | ⟨0, _⟩ => show win1_0.index t (0 : Fin 2) * 5000 + 1 * (j 0).val = win1_2.index t (0 : Fin 2) * 5000 + 1 * (j 0).val; omega
    | ⟨1, _⟩ => show win1_0.index t (1 : Fin 2) * 128 + 1 * (j 1).val = win1_2.index t (1 : Fin 2) * 128 + 1 * (j 1).val; omega
  have hb : iblk1 V c 1 t (biasAt j) = V c main_arg3 (BiasAt (((cfg1.win 2).blk t).view.emb j)) := by
    show V c main_arg3 (((cfg1.win 1).blk t).view.emb (biasAt j)) = _
    refine congrArg (V c main_arg3) (funext fun a => Fin.ext ?_)
    match a with
    | ⟨0, _⟩ => show win1_1.index t (0 : Fin 1) * 128 + 1 * (j 1).val = win1_2.index t (1 : Fin 2) * 128 + 1 * (j 1).val; omega
  rw [ha, hb]
  rfl

/-- An index of the output array lies in point t's block when each coordinate lies in the block's range. -/
theorem inBlock1 (t : Fin cfg1.N) (i : S50000x128.Idx) :
    i ∈ ((cfg1.win 2).blk t).view.set ↔ ∀ a : Fin 2, win1_2.index t a * S5000x128.size a ≤ (i a).val ∧ (i a).val < win1_2.index t a * S5000x128.size a + S5000x128.size a := by
  show i ∈ ((View.whole main_v46).slice (win1_2.rect t)).set ↔ _
  rw [View.set_slice_whole, Rect.mem_set_unit]
  exact Iff.rfl

/-- Row r of the output lies in the block of point r / 5000. -/
theorem tiled1 (i : S50000x128.Idx) : ∃ t : Fin cfg1.N, (cfg1.win 2).flush t = true ∧ i ∈ ((cfg1.win 2).blk t).view.set := by
  have hi0 : (i 0).val < 50000 := (i 0).isLt
  have hi1 : (i 1).val < 128 := (i 1).isLt
  have hN : cfg1.N = 10 := N_1
  let t : Fin cfg1.N := ⟨(i 0).val / 5000, by rw [hN]; omega⟩
  have ht : t.val = (i 0).val / 5000 := rfl
  obtain ⟨e0, e1, e2, e3, e4⟩ := blocks1 t
  refine ⟨t, flush1_2 t, ?_⟩
  rw [inBlock1]
  intro a
  match a with
  | ⟨0, _⟩ => show win1_2.index t (0 : Fin 2) * 5000 ≤ (i 0).val ∧ (i 0).val < win1_2.index t (0 : Fin 2) * 5000 + 5000; omega
  | ⟨1, _⟩ => show win1_2.index t (1 : Fin 2) * 128 ≤ (i 1).val ∧ (i 1).val < win1_2.index t (1 : Fin 2) * 128 + 128; omega

/-- The output array after the region. -/
theorem bias1_array (c : Dev nD) : (dat1 V c).arrAt 2 cfg1.N = biasMax (V c main_v45) (V c main_arg3) :=
  (dat1 V c).arrAt_eq_of_cover 2 (biasMax (V c main_v45) (V c main_arg3)) (fun t _ => written1 V c t) tiled1

end Cert.KernelIdeal.Hand

end
-- ==== Proof.BiasRegion3.lean ====
/-
  Pallas call 3 (bias and the maximum with zero): the array its pipeline leaves is the bias added along every row of the
  aggregated features, cut off below at zero.

  Point t of the ten fetches rows 5000·t … 5000·t + 4999 of the aggregated features as one block, the bias
  vector whole, and writes the block with b(q) added at column q and the maximum with zero taken back as block t of the output; the
  ten blocks tile the output array.
-/
import proofs.«125980_j23845658428197_1_alg».proof.Proof.Gen.KernelIdeal.Frame
import proofs.«125980_j23845658428197_1_alg».proof.Proof.Payload
import proofs.«125980_j23845658428197_1_alg».proof.Proof.WholeArray

set_option maxRecDepth 16384

noncomputable section

namespace Cert.KernelIdeal.Hand

open Cert.KernelIdeal Cert.KernelIdeal.Gen Idealize.ShloMosaic Idealize.ShloMosaic.TcCoe Idealize.SL.Sem
open Idealize.ShloMosaic.Pipeline (Dat Cfg Window)

variable (V : (c : Dev nD) → (b : Ref sig .tc) → Buf (Elt Ideal) ((c : Thread nD τ).loc b))

/-- The index maps over the grid: the feature and output windows sit at block row t, the bias at its one block. -/
theorem blocks3 : ∀ t : Fin cfg3.N,
    win3_0.index t (0 : Fin 2) = t.val ∧ win3_0.index t (1 : Fin 2) = 0
    ∧ win3_1.index t (0 : Fin 1) = 0
    ∧ win3_2.index t (0 : Fin 2) = t.val ∧ win3_2.index t (1 : Fin 2) = 0 :=
  (by decide +kernel : ∀ t : Fin grid3.N, _)

/-- What point t writes back is block t of the whole-array function of the arrays the region was entered with. -/
theorem written3 (c : Dev nD) (t : Fin cfg3.N) :
    (dat3 V c).flushed 2 t = ((cfg3.win 2).blk t).view.read (Elt Ideal) (biasMax (V c main_v60) (V c main_arg5)) := by
  show (cfg3.win 2).cut (grid3.coords t) ((dat3 V c).after 2 t) = _
  rw [after3_2]
  unfold out3_2
  rw [View.canon_unit_zero origin2]
  simp only [View.ld_unit_zero (S := S5000x128) origin2, View.ld_unit_zero (S := S128) origin1]
  obtain ⟨e0, e1, e2, e3, e4⟩ := blocks3 t
  funext j
  show k3_pay1 (F := Ideal) (iblk3 V c 0 t) (iblk3 V c 1 t) j = biasMax (V c main_v60) (V c main_arg5) (((cfg3.win 2).blk t).view.emb j)
  refine (biasRelu3_apply (iblk3 V c 0 t) (iblk3 V c 1 t) j).trans ?_
  have ha : iblk3 V c 0 t j = V c main_v60 (((cfg3.win 2).blk t).view.emb j) := by
    show V c main_v60 (((cfg3.win 0).blk t).view.emb j) = _
    refine congrArg (V c main_v60) (funext fun a => Fin.ext ?_)
    match a with
    | ⟨0, _⟩ => show win3_0.index t (0 : Fin 2) * 5000 + 1 * (j 0).val = win3_2.index t (0 : Fin 2) * 5000 + 1 * (j 0).val; omega
    | ⟨1, _⟩ => show win3_0.index t (1 : Fin 2) * 128 + 1 * (j 1).val = win3_2.index t (1 : Fin 2) * 128 + 1 * (j 1).val; omega
  have hb : iblk3 V c 1 t (biasAt j) = V c main_arg5 (BiasAt (((cfg3.win 2).blk t).view.emb j)) := by
    show V c main_arg5 (((cfg3.win 1).blk t).view.emb (biasAt j)) = _
    refine congrArg (V c main_arg5) (funext fun a => Fin.ext ?_)
    match a with
    | ⟨0, _⟩ => show win3_1.index t (0 : Fin 1) * 128 + 1 * (j 1).val = win3_2.index t (1 : Fin 2) * 128 + 1 * (j 1).val; omega
  rw [ha, hb]
  rfl

/-- An index of the output array lies in point t's block when each coordinate lies in the block's range. -/
theorem inBlock3 (t : Fin cfg3.N) (i : S50000x128.Idx) :
    i ∈ ((cfg3.win 2).blk t).view.set ↔ ∀ a : Fin 2, win3_2.index t a * S5000x128.size a ≤ (i a).val ∧ (i a).val < win3_2.index t a * S5000x128.size a + S5000x128.size a := by
  show i ∈ ((View.whole main_v61).slice (win3_2.rect t)).set ↔ _
  rw [View.set_slice_whole, Rect.mem_set_unit]
  exact Iff.rfl

/-- Row r of the output lies in the block of point r / 5000. -/
theorem tiled3 (i : S50000x128.Idx) : ∃ t : Fin cfg3.N, (cfg3.win 2).flush t = true ∧ i ∈ ((cfg3.win 2).blk t).view.set := by
  have hi0 : (i 0).val < 50000 := (i 0).isLt
  have hi1 : (i 1).val < 128 := (i 1).isLt
  have hN : cfg3.N = 10 := N_3
  let t : Fin cfg3.N := ⟨(i 0).val / 5000, by rw [hN]; omega⟩
  have ht : t.val = (i 0).val / 5000 := rfl
  obtain ⟨e0, e1, e2, e3, e4⟩ := blocks3 t
  refine ⟨t, flush3_2 t, ?_⟩
  rw [inBlock3]
  intro a
  match a with
  | ⟨0, _⟩ => show win3_2.index t (0 : Fin 2) * 5000 ≤ (i 0).val ∧ (i 0).val < win3_2.index t (0 : Fin 2) * 5000 + 5000; omega
  | ⟨1, _⟩ => show win3_2.index t (1 : Fin 2) * 128 ≤ (i 1).val ∧ (i 1).val < win3_2.index t (1 : Fin 2) * 128 + 128; omega

/-- The output array after the region. -/
theorem bias3_array (c : Dev nD) : (dat3 V c).arrAt 2 cfg3.N = biasMax (V c main_v60) (V c main_arg5) :=
  (dat3 V c).arrAt_eq_of_cover 2 (biasMax (V c main_v60) (V c main_arg5)) (fun t _ => written3 V c t) tiled3

end Cert.KernelIdeal.Hand

end
-- ==== Proof.BiasRegion5.lean ====
/-
  Pallas call 5 (bias): the array its pipeline leaves is the bias added along every row of the
  aggregated features.

  Point t of the ten fetches rows 5000·t … 5000·t + 4999 of the aggregated features as one block, the bias
  vector whole, and writes the block with b(q) added at column q back as block t of the output; the
  ten blocks tile the output array.
-/
import proofs.«125980_j23845658428197_1_alg».proof.Proof.Gen.KernelIdeal.Frame
import proofs.«125980_j23845658428197_1_alg».proof.Proof.Payload
import proofs.«125980_j23845658428197_1_alg».proof.Proof.WholeArray

set_option maxRecDepth 16384

noncomputable section

namespace Cert.KernelIdeal.Hand

open Cert.KernelIdeal Cert.KernelIdeal.Gen Idealize.ShloMosaic Idealize.ShloMosaic.TcCoe Idealize.SL.Sem
open Idealize.ShloMosaic.Pipeline (Dat Cfg Window)

variable (V : (c : Dev nD) → (b : Ref sig .tc) → Buf (Elt Ideal) ((c : Thread nD τ).loc b))

/-- The index maps over the grid: the feature and output windows sit at block row t, the bias at its one block. -/
theorem blocks5 : ∀ t : Fin cfg5.N,
    win5_0.index t (0 : Fin 2) = t.val ∧ win5_0.index t (1 : Fin 2) = 0
    ∧ win5_1.index t (0 : Fin 1) = 0
    ∧ win5_2.index t (0 : Fin 2) = t.val ∧ win5_2.index t (1 : Fin 2) = 0 :=
  (by decide +kernel : ∀ t : Fin grid5.N, _)

/-- What point t writes back is block t of the whole-array function of the arrays the region was entered with. -/
theorem written5 (c : Dev nD) (t : Fin cfg5.N) :
    (dat5 V c).flushed 2 t = ((cfg5.win 2).blk t).view.read (Elt Ideal) (biasOnly (V c main_v75) (V c main_arg7)) := by
  show (cfg5.win 2).cut (grid5.coords t) ((dat5 V c).after 2 t) = _
  rw [after5_2]
  unfold out5_2
  rw [View.canon_unit_zero origin2]
  simp only [View.ld_unit_zero (S := S5000x128) origin2, View.ld_unit_zero (S := S128) origin1]
  obtain ⟨e0, e1, e2, e3, e4⟩ := blocks5 t
  funext j
  show k5_pay1 (F := Ideal) (iblk5 V c 0 t) (iblk5 V c 1 t) j = biasOnly (V c main_v75) (V c main_arg7) (((cfg5.win 2).blk t).view.emb j)
  refine (bias5_apply (iblk5 V c 0 t) (iblk5 V c 1 t) j).trans ?_
  have ha : iblk5 V c 0 t j = V c main_v75 (((cfg5.win 2).blk t).view.emb j) := by
    show V c main_v75 (((cfg5.win 0).blk t).view.emb j) = _
    refine congrArg (V c main_v75) (funext fun a => Fin.ext ?_)
    match a with
    | ⟨0, _⟩ => show win5_0.index t (0 : Fin 2) * 5000 + 1 * (j 0).val = win5_2.index t (0 : Fin 2) * 5000 + 1 * (j 0).val; omega
    | ⟨1, _⟩ => show win5_0.index t (1 : Fin 2) * 128 + 1 * (j 1).val = win5_2.index t (1 : Fin 2) * 128 + 1 * (j 1).val; omega
  have hb : iblk5 V c 1 t (biasAt j) = V c main_arg7 (BiasAt (((cfg5.win 2).blk t).view.emb j)) := by
    show V c main_arg7 (((cfg5.win 1).blk t).view.emb (biasAt j)) = _
    refine congrArg (V c main_arg7) (funext fun a => Fin.ext ?_)
    match a with
    | ⟨0, _⟩ => show win5_1.index t (0 : Fin 1) * 128 + 1 * (j 1).val = win5_2.index t (1 : Fin 2) * 128 + 1 * (j 1).val; omega
  rw [ha, hb]
  rfl

/-- An index of the output array lies in point t's block when each coordinate lies in the block's range. -/
theorem inBlock5 (t : Fin cfg5.N) (i : S50000x128.Idx) :
    i ∈ ((cfg5.win 2).blk t).view.set ↔ ∀ a : Fin 2, win5_2.index t a * S5000x128.size a ≤ (i a).val ∧ (i a).val < win5_2.index t a * S5000x128.size a + S5000x128.size a := by
  show i ∈ ((View.whole main_v76).slice (win5_2.rect t)).set ↔ _
  rw [View.set_slice_whole, Rect.mem_set_unit]
  exact Iff.rfl

/-- Row r of the output lies in the block of point r / 5000. -/
theorem tiled5 (i : S50000x128.Idx) : ∃ t : Fin cfg5.N, (cfg5.win 2).flush t = true ∧ i ∈ ((cfg5.win 2).blk t).view.set := by
  have hi0 : (i 0).val < 50000 := (i 0).isLt
  have hi1 : (i 1).val < 128 := (i 1).isLt
  have hN : cfg5.N = 10 := N_5
  let t : Fin cfg5.N := ⟨(i 0).val / 5000, by rw [hN]; omega⟩
  have ht : t.val = (i 0).val / 5000 := rfl
  obtain ⟨e0, e1, e2, e3, e4⟩ := blocks5 t
  refine ⟨t, flush5_2 t, ?_⟩
  rw [inBlock5]
  intro a
  match a with
  | ⟨0, _⟩ => show win5_2.index t (0 : Fin 2) * 5000 ≤ (i 0).val ∧ (i 0).val < win5_2.index t (0 : Fin 2) * 5000 + 5000; omega
  | ⟨1, _⟩ => show win5_2.index t (1 : Fin 2) * 128 ≤ (i 1).val ∧ (i 1).val < win5_2.index t (1 : Fin 2) * 128 + 128; omega

/-- The output array after the region. -/
theorem bias5_array (c : Dev nD) : (dat5 V c).arrAt 2 cfg5.N = biasOnly (V c main_v75) (V c main_arg7) :=
  (dat5 V c).arrAt_eq_of_cover 2 (biasOnly (V c main_v75) (V c main_arg7)) (fun t _ => written5 V c t) tiled5

end Cert.KernelIdeal.Hand

end
-- ==== Proof.Layers.lean ====
/-
  The kernel program's result is the reference's result of the same arguments.

  Boundary by boundary, at the ideal instance: the first dense call leaves the product of the features with the
  first weight; the aggregation stretch aggregates it along the edges; the bias call adds the first bias and takes
  the maximum with zero; and so on through the second round and the third, whose bias call takes no maximum. The
  reference composes the same three rounds, its host product, its two broadcasts of a bias and its zero splat being
  those whole-array functions.
-/
import proofs.«125980_j23845658428197_1_alg».proof.Proof.HostWalk
import proofs.«125980_j23845658428197_1_alg».proof.Proof.Bridge
import proofs.«125980_j23845658428197_1_alg».proof.Proof.DenseRegion0
import proofs.«125980_j23845658428197_1_alg».proof.Proof.DenseRegion2
import proofs.«125980_j23845658428197_1_alg».proof.Proof.DenseRegion4
import proofs.«125980_j23845658428197_1_alg».proof.Proof.BiasRegion1
import proofs.«125980_j23845658428197_1_alg».proof.Proof.BiasRegion3
import proofs.«125980_j23845658428197_1_alg».proof.Proof.BiasRegion5

set_option maxRecDepth 16384

noncomputable section

namespace Cert.KernelIdeal.Hand

open Cert.KernelIdeal Cert.KernelIdeal.Gen Idealize.ShloMosaic Idealize.ShloMosaic.TcCoe Idealize.SL.Sem
open Cert.ReferenceIdeal.ReadP Cert.ReferenceIdeal.Hand

variable (m : (ℓ : Loc nD τ sig) → Buf (Elt Ideal) ℓ) (ρ : Dev nD → PrngReg) (c : Dev nD)

/-! ## First round -/

theorem dense_4 : W4 m ρ c (Proc.devRef .tc main_v32) = product (m ((c : Thread nD τ).loc main_arg0)) (m ((c : Thread nD τ).loc main_arg2)) := by
  have h := (W4_arr m ρ c 2).trans (dense0_array (V3 m ρ) c)
  have e0 : V3 m ρ c main_arg0 = (m ((c : Thread nD τ).loc main_arg0)) := arg0_3 m ρ c
  have e1 : V3 m ρ c main_arg2 = (m ((c : Thread nD τ).loc main_arg2)) := arg2_3 m ρ c
  rw [e0, e1] at h
  exact h

theorem biased_6 : W6 m ρ c (Proc.devRef .tc main_v46) = biasMax (W5 m ρ c (Proc.devRef .tc main_v45)) (m ((c : Thread nD τ).loc main_arg3)) := by
  have h := (W6_arr m ρ c 2).trans (bias1_array (V5 m ρ) c)
  have e1 : V5 m ρ c main_arg3 = (m ((c : Thread nD τ).loc main_arg3)) := arg3_5 m ρ c
  rw [e1] at h
  exact h

/-! ## Second round -/

theorem dense_7 : W7 m ρ c (Proc.devRef .tc main_v47) = product (W6 m ρ c (Proc.devRef .tc main_v46)) (m ((c : Thread nD τ).loc main_arg4)) := by
  have h := (W7_arr m ρ c 2).trans (dense2_array (V6 m ρ) c)
  have e1 : V6 m ρ c main_arg4 = (m ((c : Thread nD τ).loc main_arg4)) := arg4_6 m ρ c
  rw [e1] at h
  exact h

theorem biased_9 : W9 m ρ c (Proc.devRef .tc main_v61) = biasMax (W8 m ρ c (Proc.devRef .tc main_v60)) (m ((c : Thread nD τ).loc main_arg5)) := by
  have h := (W9_arr m ρ c 2).trans (bias3_array (V8 m ρ) c)
  have e1 : V8 m ρ c main_arg5 = (m ((c : Thread nD τ).loc main_arg5)) := arg5_8 m ρ c
  rw [e1] at h
  exact h

/-! ## Third round -/

theorem dense_10 : W10 m ρ c (Proc.devRef .tc main_v62) = product (W9 m ρ c (Proc.devRef .tc main_v61)) (m ((c : Thread nD τ).loc main_arg6)) := by
  have h := (W10_arr m ρ c 2).trans (dense4_array (V9 m ρ) c)
  have e1 : V9 m ρ c main_arg6 = (m ((c : Thread nD τ).loc main_arg6)) := arg6_9 m ρ c
  rw [e1] at h
  exact h

theorem biased_12 : W12 m ρ c (Proc.devRef .tc main_v76) = biasOnly (W11 m ρ c (Proc.devRef .tc main_v75)) (m ((c : Thread nD τ).loc main_arg7)) := by
  have h := (W12_arr m ρ c 2).trans (bias5_array (V11 m ρ) c)
  have e1 : V11 m ρ c main_arg7 = (m ((c : Thread nD τ).loc main_arg7)) := arg7_11 m ρ c
  rw [e1] at h
  exact h

/-! ## The result -/

/-- What the last boundary holds at the result buffer is the reference's last stage of the arguments. -/
theorem result_eq : W12 m ρ c (Proc.devRef .tc main_v76)
    = val_main_v84 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  rw [reference_rounds]
  rw [biased_12, aggregated_11, dense_10, biased_9, aggregated_8, dense_7, biased_6, aggregated_5, dense_4]
  simp only [Cert.ReferenceIdeal.Hand.round, dense_eq, biased_eq, rectified_eq]

end Cert.KernelIdeal.Hand

end
-- ==== Proof.lean ====
/-
  A three-layer graph convolution over 50000 nodes with 128 features and 800000 edges, against its jnp reference.

  Both programs prepare the graph the same way: a self-loop is appended for every node, the degree of a node is the
  number of edges into it, and an edge is weighted by the product of its two end nodes' inverse square-root degrees.
  A layer multiplies the node features by a 128 × 128 weight, sums the weighted rows of the product over each node's
  incoming edges, adds a bias along every row, and (in the first two layers) takes the maximum with zero.

  The kernel program runs the product and the bias step of each layer as Pallas calls over ten blocks of 5000 node
  rows, and the summation over the edges as the same host operations the reference runs. At the ideal instance the
  casts to bfloat16 in front of a block product are the identity, so a block of a dense call's output is the same
  block of the host's whole product, and the ten blocks tile the array; a bias call's block adds b(q) at column q,
  which is what the reference's two broadcasts of the bias read. The preparation and the three summations over the
  edges are, operation for operation, the reference's own, and enter the proof as functions that are never opened.
  So the result buffer of the kernel program ends holding the reference's last stage of the same arguments.

  The frames of the two kernel programs are their generated certificates; the reference's frame is its run with the
  result dropped; the idealisation rewrote nothing, so there is nothing to preserve.
-/
import proofs.«125980_j23845658428197_1_alg».proof.Defs
import proofs.«125980_j23845658428197_1_alg».proof.Proof.Gen.Kernel
import proofs.«125980_j23845658428197_1_alg».proof.Proof.Gen.Kernel.Frame
import proofs.«125980_j23845658428197_1_alg».proof.Proof.Gen.KernelIdeal
import proofs.«125980_j23845658428197_1_alg».proof.Proof.Gen.KernelIdeal.Frame
import proofs.«125980_j23845658428197_1_alg».proof.Proof.Gen.ReferenceIdeal
import proofs.«125980_j23845658428197_1_alg».proof.Proof.Gen.Pre_finite_inputs
import proofs.«125980_j23845658428197_1_alg».proof.Proof.RefRun
import proofs.«125980_j23845658428197_1_alg».proof.Proof.RefRead
import proofs.«125980_j23845658428197_1_alg».proof.Proof.RunResult
import proofs.«125980_j23845658428197_1_alg».proof.Proof.Layers
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.ValueP.run (F := Ideal) m ρ)

theorem preserves : Cert.preserves_Kernel_KernelIdeal := trivial

/-- From memories that agree on the arguments both programs end with the result buffer at the reference's last
    stage of those arguments. -/
theorem algebraic : Cert.algebraic_KernelIdeal_ReferenceIdeal := by
  intro m ρ m' ρ' _ hagree
  refine ⟨fun c => Cert.KernelIdeal.Gen.W12 m ρ c (Proc.devRef .tc Cert.KernelIdeal.main_v76), Cert.KernelIdeal.Gen.run_result m ρ, ?_⟩
  refine (θ_run Cert.ReferenceIdeal.defs _ _).mono (fun _ h c => ⟨(h c).1.trans ?_, (h c).2⟩)
    (Cert.ReferenceIdeal.ValueP.run (F := Ideal) m' ρ')
  obtain ⟨h0, h1, h2, h3, h4, h5, h6, h7⟩ := hagree c
  refine (Cert.ReferenceIdeal.ReadP.val_main_v84_eq m' c).trans ?_
  rw [h0, h1, h2, h3, h4, h5, h6, h7]
  exact (Cert.KernelIdeal.Hand.result_eq m ρ c).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
